-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x16 : Shape := ⟨2, ![600000, 16]⟩
abbrev S128x128 : Shape := ⟨2, ![128, 128]⟩
abbrev S128 : Shape := ⟨1, ![128]⟩
abbrev S128x16 : Shape := ⟨2, ![128, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128 .f32) (main_arg14 : FVec F S128 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x16 .f32) (main_arg12 : FVec F S128 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x16 .f32 := Host.absf main_arg11
  let main_cst_18 : FVec F S_ .f32 := constant S_ .f32 0x7F800000#32
  let main_v50 : FVec F S128x16 .f32 := broadcastInDim S128x16 ![] bcast_S_S128x16 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x16 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x600000 32) (main_arg2 : FVec F S600000x16 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x16 .f32) (main_arg12 : FVec F S128 .f32) (main_arg13 : FVec F S128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x600000 : Shape := ⟨2, ![2, 600000]⟩
abbrev S600000x16 : Shape := ⟨2, ![600000, 16]⟩
abbrev S128x128 : Shape := ⟨2, ![128, 128]⟩
abbrev S128 : Shape := ⟨1, ![128]⟩
abbrev S128x16 : Shape := ⟨2, ![128, 16]⟩
abbrev S1x600000 : Shape := ⟨2, ![1, 600000]⟩
abbrev S600000 : Shape := ⟨1, ![600000]⟩
abbrev S1x128 : Shape := ⟨2, ![1, 128]⟩
abbrev S100000x256 : Shape := ⟨2, ![100000, 256]⟩
abbrev S5000x128 : Shape := ⟨2, ![5000, 128]⟩
abbrev S5000x256 : Shape := ⟨2, ![5000, 256]⟩
abbrev S16x128 : Shape := ⟨2, ![16, 128]⟩
abbrev S600000x128 : Shape := ⟨2, ![600000, 128]⟩
abbrev S_ : Shape := ⟨0, ![]⟩
abbrev S600000x1 : Shape := ⟨2, ![600000, 1]⟩
abbrev S600000x256 : Shape := ⟨2, ![600000, 256]⟩

abbrev nBuf : Space → Nat
  | .hbm => 110
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x16, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x16, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S100000x256, .f32⟩
  | .hbm, ⟨27, _⟩ => ⟨S100000x128, .f32⟩
  | .hbm, ⟨28, _⟩ => ⟨S16x128, .f32⟩
  | .hbm, ⟨29, _⟩ => ⟨S600000x128, .f32⟩
  | .hbm, ⟨30, _⟩ => ⟨S1x128, .f32⟩
  | .hbm, ⟨31, _⟩ => ⟨S600000x128, .f32⟩
  | .hbm, ⟨32, _⟩ => ⟨S600000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x256, .f32⟩
  | .hbm, ⟨42, _⟩ => ⟨S600000x128, .f32⟩
  | .hbm, ⟨43, _⟩ => ⟨S600000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S600000x128, .f32⟩
  | .hbm, ⟨54, _⟩ => ⟨S600000x128, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S600000x128, .f32⟩
  | .hbm, ⟨59, _⟩ => ⟨S600000x128, .f32⟩
  | .hbm, ⟨60, _⟩ => ⟨S_, .f32⟩
  | .hbm, ⟨61, _⟩ => ⟨S600000x128, .f32⟩
  | .hbm, ⟨62, _⟩ => ⟨S600000x128, .f32⟩
  | .hbm, ⟨63, _⟩ => ⟨S600000x128, .f32⟩
  | .hbm, ⟨64, _⟩ => ⟨S_, .f32⟩
  | .hbm, ⟨65, _⟩ => ⟨S100000x128, .f32⟩
  | .hbm, ⟨66, _⟩ => ⟨S600000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x256, .f32⟩
  | .local _ .vmem, ⟨9, _⟩ => ⟨S5000x256, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_c_7 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v50 : Ref sig .tc := ⟨.hbm, 97, rfl⟩
abbrev main_cst_8 : Ref sig .tc := ⟨.hbm, 98, rfl⟩
abbrev main_v51 : Ref sig .tc := ⟨.hbm, 99, rfl⟩
abbrev main_v52 : Ref sig .tc := ⟨.hbm, 100, rfl⟩
abbrev main_cst_9 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S5000x128_S5000x128_S5000x256_d1 : Shape.Concatenates [S5000x128, S5000x128] S5000x256 1
  inb_S5000x256_S5000x256_0_0 : ∀ a, (![0, 0] : Fin 2 → Nat) a + S5000x256.size a ≤ S5000x256.size a
  h_S5000x256 : 0 < S5000x256.numel
  transposes_S128x16_S16x128_1_0 : S128x16.Transposes [1, 0] S16x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S600000x256_S600000x128_0_0 : S600000x256.Slices ![0, 0] S600000x128
  slices_S600000x256_S600000x128_0_128 : S600000x256.Slices ![0, 128] S600000x128
  bcast_S_S600000x128 : S_.BroadcastsInDim S600000x128 (![] : Fin 0 → Fin S600000x128.rank)
  bcast_S_S100000x128 : S_.BroadcastsInDim S100000x128 (![] : Fin 0 → Fin S100000x128.rank)
  shapeCasts_S5000x128_S5000x128 : S5000x128.ShapeCasts S5000x128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  dot_S5000x128_S128x128_S5000x128_1_0_0_1_n_n_wf : DotDims.WF S5000x128 S128x128 S5000x128 [1] [0] [0] [1] [] []
  dot_S600000x16_S16x128_S600000x128_1_0_0_1_n_n_wf : DotDims.WF S600000x16 S16x128 S600000x128 [1] [0] [0] [1] [] []
  gather_S100000x256_S600000x1_S600000x256_1_0_n_n_0_1_1256_wf : GatherDims.WF S100000x256 S600000x1 S600000x256 [1] [0] [] [0] [] 1 ![1, 256]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x256.size a ≤ S100000x256.size a
  hwx0_7 : ∀ i : grid0.Coords, EltTy.bits .f32 = 32 ∨ (Rect.block (s := S100000x256) S5000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S5000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x16 : Shape := ⟨2, ![600000, 16]⟩
abbrev S128x128 : Shape := ⟨2, ![128, 128]⟩
abbrev S128 : Shape := ⟨1, ![128]⟩
abbrev S128x16 : Shape := ⟨2, ![128, 16]⟩
abbrev S1x600000 : Shape := ⟨2, ![1, 600000]⟩
abbrev S600000 : Shape := ⟨1, ![600000]⟩
abbrev S1x128 : Shape := ⟨2, ![1, 128]⟩
abbrev S16x128 : Shape := ⟨2, ![16, 128]⟩
abbrev S600000x128 : Shape := ⟨2, ![600000, 128]⟩
abbrev S_ : Shape := ⟨0, ![]⟩
abbrev S600000x1 : Shape := ⟨2, ![600000, 1]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x600000, .i32⟩
  | 2 => ⟨S600000x16, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x16, .f32⟩
  | 12 => ⟨S128, .f32⟩
  | 13 => ⟨S128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S128x128, .f32⟩
  | 20 => ⟨S100000x128, .f32⟩
  | 21 => ⟨S1x128, .f32⟩
  | 22 => ⟨S100000x128, .f32⟩
  | 23 => ⟨S100000x128, .f32⟩
  | 24 => ⟨S128x128, .f32⟩
  | 25 => ⟨S100000x128, .f32⟩
  | 26 => ⟨S1x128, .f32⟩
  | 27 => ⟨S100000x128, .f32⟩
  | 28 => ⟨S100000x128, .f32⟩
  | 29 => ⟨S128x128, .f32⟩
  | 30 => ⟨S100000x128, .f32⟩
  | 31 => ⟨S1x128, .f32⟩
  | 32 => ⟨S100000x128, .f32⟩
  | 33 => ⟨S100000x128, .f32⟩
  | 34 => ⟨S128x128, .f32⟩
  | 35 => ⟨S100000x128, .f32⟩
  | 36 => ⟨S1x128, .f32⟩
  | 37 => ⟨S100000x128, .f32⟩
  | 38 => ⟨S100000x128, .f32⟩
  | 39 => ⟨S16x128, .f32⟩
  | 40 => ⟨S600000x128, .f32⟩
  | 41 => ⟨S1x128, .f32⟩
  | 42 => ⟨S600000x128, .f32⟩
  | 43 => ⟨S600000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S600000x128, .f32⟩
  | 65 => ⟨S600000x128, .f32⟩
  | 66 => ⟨S_, .f32⟩
  | 67 => ⟨S600000x128, .f32⟩
  | 68 => ⟨S600000x128, .f32⟩
  | 69 => ⟨S_, .f32⟩
  | 70 => ⟨S600000x128, .f32⟩
  | 71 => ⟨S600000x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S600000x128, .f32⟩
  | 82 => ⟨S_, .f32⟩
  | 83 => ⟨S100000x128, .f32⟩
  | 84 => ⟨S600000x1, .i32⟩
  | 85 => ⟨S100000x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S100000x128, .f32⟩
  | 109 => ⟨S100000x128, .f32⟩
  | 110 => ⟨S100000x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S128, .f32⟩
  | 4 => ⟨S128, .f32⟩
  | 5 => ⟨S128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_c_0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_1 : Ref sig .tc := ⟨.hbm, 53, rfl⟩
abbrev main_v36 : Ref sig .tc := ⟨.hbm, 54, rfl⟩
abbrev main_v37 : Ref sig .tc := ⟨.hbm, 55, rfl⟩
abbrev main_c_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst : Ref sig .tc := ⟨.hbm, 66, rfl⟩
abbrev main_v47 : Ref sig .tc := ⟨.hbm, 67, rfl⟩
abbrev main_v48 : Ref sig .tc := ⟨.hbm, 68, rfl⟩
abbrev main_cst_3 : Ref sig .tc := ⟨.hbm, 69, rfl⟩
abbrev main_v49 : Ref sig .tc := ⟨.hbm, 70, rfl⟩
abbrev main_v50 : Ref sig .tc := ⟨.hbm, 71, rfl⟩
abbrev main_c_4 : Ref sig .tc := ⟨.hbm, 72, rfl⟩
abbrev main_v51 : Ref sig .tc := ⟨.hbm, 73, rfl⟩
abbrev main_v52 : Ref sig .tc := ⟨.hbm, 74, rfl⟩
abbrev main_c_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_cst_10 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_call0_cst : Ref sig .tc := ⟨.hbm, 102, rfl⟩
abbrev main_call0_v0 : Ref sig .tc := ⟨.hbm, 103, rfl⟩
abbrev main_call0_v1 : Ref sig .tc := ⟨.hbm, 104, rfl⟩
abbrev main_call0_cst_0 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_v5 : Ref sig .tc := ⟨.hbm, 109, rfl⟩
abbrev main_call0_v6 : Ref sig .tc := ⟨.hbm, 110, rfl⟩
abbrev main_call0_v7 : Ref sig .tc := ⟨.hbm, 111, rfl⟩
abbrev main_call0_cst_1 : Ref sig .tc := ⟨.hbm, 112, rfl⟩
abbrev main_call0_v8 : Ref sig .tc := ⟨.hbm, 113, rfl⟩
abbrev main_call0_cst_2 : Ref sig .tc := ⟨.hbm, 114, rfl⟩
abbrev main_call0_v9 : Ref sig .tc := ⟨.hbm, 115, rfl⟩
abbrev main_call0_v10 : Ref sig .tc := ⟨.hbm, 116, rfl⟩
abbrev main_call0_v11 : Ref sig .tc := ⟨.hbm, 117, rfl⟩
abbrev main_call0_cst_3 : Ref sig .tc := ⟨.hbm, 118, rfl⟩
abbrev main_call0_v12 : Ref sig .tc := ⟨.hbm, 119, rfl⟩
abbrev main_call0_cst_4 : Ref sig .tc := ⟨.hbm, 120, rfl⟩
abbrev main_call0_call0_v0 : Ref sig .tc := ⟨.hbm, 121, rfl⟩
abbrev main_call0_call0_v1 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_12 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_call1_cst : Ref sig .tc := ⟨.hbm, 140, rfl⟩
abbrev main_call1_v0 : Ref sig .tc := ⟨.hbm, 141, rfl⟩
abbrev main_v89 : Ref sig .tc := ⟨.hbm, 142, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x16_S16x128_1_0 : S128x16.Transposes [1, 0] S16x128
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  dot_S600000x16_S16x128_S600000x128_1_0_0_1_n_n_wf : DotDims.WF S600000x16 S16x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.Spec.lean ====
/-
  The whole-array functions that the three tiled stages of the graph layer compute, over the extended reals.

  * `proj x wt b`      : an affine map of the node rows, (x · wt)[r, j] + b[0, j];
  * `pair P Q`         : two tables side by side, columns 0..127 the first and 128..255 the second;
  * `projPair …`       : two such affine maps side by side;
  * `combine agg x wt b`: the gated residual  agg[r, j] · σ((x · wt)[r, j] + b[0, j]) + x[r, j],
                          σ the logistic function 1 / (1 + e^(-y));
  * `normRelu o μ s γ β`: the normalisation followed by the positive part,
                          max (γ[j] · ((o[r, j] − μ[j]) · s[j]) + β[j]) 0.
  Row vectors are kept as 1 × 128 arrays, which is how the tiled stages receive them.
-/
import Idealize.ShloMosaic.PureOps.Ideal
import Idealize.ShloMosaic.Lib.ValueIdx

noncomputable section

namespace Cert.Spec

open Idealize.ShloMosaic Idealize.ShloMosaic.ValueIdx
open scoped BigOperators

/-- Node features: 100000 rows of 128. -/
abbrev Rows : Shape := ⟨2, ![100000, 128]⟩
/-- Two feature tables side by side. -/
abbrev Rows2 : Shape := ⟨2, ![100000, 256]⟩
/-- A 128 × 128 weight. -/
abbrev Sq : Shape := ⟨2, ![128, 128]⟩
/-- A row vector. -/
abbrev Row1 : Shape := ⟨2, ![1, 128]⟩

/-- The affine map of the rows: entry (r, j) is the sum over k of x[r, k] · wt[k, j], plus b[0, j]. -/
def proj (x : Rows.Idx → EReal) (wt : Sq.Idx → EReal) (b : Row1.Idx → EReal) : Rows.Idx → EReal :=
  fun i => (∑ k : Fin 128, x (ix2 (i 0) k) * wt (ix2 k (i 1))) + b (ix2 (0 : Fin 1) (i 1))

/-- Two tables side by side: column j < 128 is the first table's column j, column 128 + j the second's. -/
def pair (P Q : Rows.Idx → EReal) : Rows2.Idx → EReal :=
  fun i => if h : (i 1).val < 128 then P (ix2 (i 0) ⟨(i 1).val, h⟩)
    else Q (ix2 (i 0) ⟨(i 1).val - 128, by have h2 : (i 1).val < 256 := (i 1).isLt; omega⟩)

/-- Two affine maps of the rows side by side. -/
def projPair (x : Rows.Idx → EReal) (wa : Sq.Idx → EReal) (ba : Row1.Idx → EReal) (wb : Sq.Idx → EReal)
    (bb : Row1.Idx → EReal) : Rows2.Idx → EReal :=
  pair (proj x wa ba) (proj x wb bb)

/-- The gated residual: agg · σ(x · wt + b) + x, entry by entry. -/
def combine (agg x : Rows.Idx → EReal) (wt : Sq.Idx → EReal) (b : Row1.Idx → EReal) : Rows.Idx → EReal :=
  fun i => agg i * Ideal.logistic (proj x wt b i) + x i

/-- Normalise each column with the given centre and scale, apply the affine pair (γ, β), keep the positive part. -/
def normRelu (o : Rows.Idx → EReal) (mu s g be : Row1.Idx → EReal) : Rows.Idx → EReal :=
  fun i => max (g (ix2 (0 : Fin 1) (i 1)) * ((o i - mu (ix2 (0 : Fin 1) (i 1))) * s (ix2 (0 : Fin 1) (i 1)))
    + be (ix2 (0 : Fin 1) (i 1))) 0

end Cert.Spec

end
-- ==== Proof.KStages.lean ====
/-
  The kernel program's result as a function of its fifteen arguments, over the extended reals: the host stretches as
  compositions of their own array operations, the three tiled stages as the whole-array functions of `Spec`.
  Stretch by stretch: the transposed weights and the biases as row vectors go into the first stage, which leaves
  [A x | B x] and C x; the edge stretch gathers rows of those tables at the edge endpoints, forms the gate
  σ(B x[src] + C x[dst] + E e) and the message A x[src] · gate, and sums the messages into their target nodes; the
  second stage forms the gated residual; the column means and variances of that (the variance bounded below by 0)
  give the centre and the scale of the third stage.
-/
import proofs.«423304_j31404800868644_3_alg».proof.KernelIdeal
import proofs.«423304_j31404800868644_3_alg».proof.Proof.Gen.KernelIdeal
import proofs.«423304_j31404800868644_3_alg».proof.Proof.Spec
import Idealize.ShloMosaic.PureOps.Ideal

noncomputable section

namespace Cert.KernelIdeal.KStage

open Cert.KernelIdeal Cert.KernelIdeal.Facts₀ Cert.KernelIdeal.Facts Idealize.ShloMosaic

/-- An array of extended reals of shape `s`. -/
abbrev TF (s : Shape) : Type := FVec Ideal s .f32
/-- An array of 32-bit integers of shape `s`. -/
abbrev TI (s : Shape) : Type := IVec s 32

/-- Row k of the 2 × E edge list as a vector of E node indices: k = 0 the sources. -/
def sources (ei : TI S2x600000) : TI S600000 :=
  fun i => shapeCast S600000 (extractStridedSlice S1x600000 ![0, 0] ei slices_S2x600000_S1x600000_0_0) shapeCasts_S1x600000_S600000 i
/-- k = 1 the targets. -/
def targets (ei : TI S2x600000) : TI S600000 :=
  fun i => shapeCast S600000 (extractStridedSlice S1x600000 ![1, 0] ei slices_S2x600000_S1x600000_1_0) shapeCasts_S1x600000_S600000 i

/-- A negative index counts from the end: v + 100000 where v < 0; then laid out as a column of start indices. -/
def wrap (v : TI S600000) : TI S600000x1 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- A 128 × 128 weight transposed. -/
def wt (w : TF S128x128) : TF S128x128 := transpose S128x128 [1, 0] w transposes_S128x128_S128x128_1_0

/-- A vector of 128 as a 1 × 128 row. -/
def asRow (b : TF S128) : TF S1x128 := fun i => shapeCast S1x128 b shapeCasts_S128_S1x128 i

/-- e · wᵀ + b over the edge rows. -/
def edgeAffine (ea : TF S600000x16) (w : TF S128x16) (b : TF S128) : TF S600000x128 :=
  addf (Host.dotGeneral dot_S600000x16_S16x128_S600000x128_1_0_0_1_n_n (some .fp32) ea
      (transpose S16x128 [1, 0] w transposes_S128x16_S16x128_1_0))
    (broadcastInDim S600000x128 ![0, 1] bcast_S1x128_S600000x128_0_1 (broadcastInDim S1x128 ![1] bcast_S128_S1x128_1 b))

/-- The logistic function 1 / (1 + e^(-z)) as the program spells it, over the edge rows. -/
def sigmE (z : TF S600000x128) : TF S600000x128 :=
  Host.divf (broadcastInDim S600000x128 ![] bcast_S_S600000x128 (constant S_ .f32 0x3F800000#32))
    (addf (broadcastInDim S600000x128 ![] bcast_S_S600000x128 (constant S_ .f32 0x3F800000#32)) (Host.exp (Host.negf z)))

/-- The rows of the two-table array at a column of (clamped) start indices. -/
def rowsAt2 (tbl : TF S100000x256) (ix : TI S600000x1) : TF S600000x256 :=
  Host.gather gather_S100000x256_S600000x1_S600000x256_1_0_n_n_0_1_1256 tbl ix
/-- The rows of a node table at a column of (clamped) start indices. -/
def rowsAt (tbl : TF S100000x128) (ix : TI S600000x1) : TF S600000x128 :=
  Host.gather gather_S100000x128_S600000x1_S600000x128_1_0_n_n_0_1_1128 tbl ix
/-- Columns 0 … 127 of a 256-column edge table. -/
def leftHalf (t : TF S600000x256) : TF S600000x128 := extractStridedSlice S600000x128 ![0, 0] t slices_S600000x256_S600000x128_0_0
/-- Columns 128 … 255. -/
def rightHalf (t : TF S600000x256) : TF S600000x128 := extractStridedSlice S600000x128 ![0, 128] t slices_S600000x256_S600000x128_0_128

/-- The messages A x[src] · σ(B x[src] + C x[dst] + E e), summed into their target nodes, from the two-table array
    [A x | B x] and the table C x. -/
def aggregate (AB : TF S100000x256) (Cx : TF S100000x128) (Ex : TF S600000x128) (ei : TI S2x600000) : TF S100000x128 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 (targets ei))
    (mulf (leftHalf (rowsAt2 AB (wrap (sources ei))))
      (sigmE (addf (addf (rightHalf (rowsAt2 AB (wrap (sources ei)))) (rowsAt Cx (wrap (targets ei)))) Ex)))

/-- The column means: the column sums over 100000. -/
def meanOf (o : TF S100000x128) : TF S128 :=
  Host.divf (Host.reduceAdd o (constant S_ .f32 0x00000000#32) reducesTo_S100000x128_S128_d0 h_S_)
    (broadcastInDim S128 ![] bcast_S_S128 (constant S_ .f32 0x47C35000#32))

/-- The divisor of the variance: 100000 minus the (zero) correction. -/
def count : TF S_ :=
  subf (constant S_ .f32 0x47C35000#32) (sitofp .f32 (constantI S_ 32 0#32))

/-- The rows minus their column means. -/
def centred (o : TF S100000x128) : TF S100000x128 :=
  subf o (broadcastInDim S100000x128 ![0, 1] bcast_S1x128_S100000x128_0_1
    (Host.divf (broadcastInDim S1x128 ![1] bcast_S128_S1x128_1
        (Host.reduceAdd o (constant S_ .f32 0x00000000#32) reducesTo_S100000x128_S128_d0 h_S_))
      (broadcastInDim S1x128 ![] bcast_S_S1x128 (constant S_ .f32 0x47C35000#32))))

/-- The column variances: the column sums of the squared centred rows over the count, where the count is positive. -/
def varOf (o : TF S100000x128) : TF S128 :=
  select (broadcastInDim S128 ![] bcast_S_S128 (cmpf .ogt count (constant S_ .f32 0x00000000#32)))
    (Host.divf (Host.reduceAdd (mulf (centred o) (centred o)) (constant S_ .f32 0x00000000#32) reducesTo_S100000x128_S128_d0 h_S_)
      (broadcastInDim S128 ![] bcast_S_S128 count))
    (broadcastInDim S128 ![] bcast_S_S128 (id (constant S_ .f32 0x7FC00000#32)))

/-- The scale of the last stage: (max var 0 + ε)^(-1/2), column by column. -/
def scaleOf (o : TF S100000x128) : TF S128 :=
  Host.rsqrt (addf (maximumf (varOf o) (broadcastInDim S128 ![] bcast_S_S128 (constant S_ .f32 0x00000000#32)))
    (broadcastInDim S128 ![] bcast_S_S128 (constant S_ .f32 0x3727C5AC#32)))

/-- The second stage's output from the first stage's two tables. -/
def residual (AB : TF S100000x256) (Cx : TF S100000x128) (x : TF S100000x128) (ei : TI S2x600000) (ea : TF S600000x16)
    (Dw : TF S128x128) (Db : TF S128) (Ew : TF S128x16) (Eb : TF S128) : TF S100000x128 :=
  Cert.Spec.combine (aggregate AB Cx (edgeAffine ea Ew Eb) ei) x (wt Dw) (asRow Db)

/-- The third stage's output from the second's. -/
def normalise (o : TF S100000x128) (g be : TF S128) : TF S100000x128 :=
  Cert.Spec.normRelu o (asRow (meanOf o)) (asRow (scaleOf o)) (asRow g) (asRow be)

/-- The kernel program's result as a function of its fifteen arguments. -/
def out (x : TF S100000x128) (ei : TI S2x600000) (ea : TF S600000x16) (Aw : TF S128x128) (Ab : TF S128) (Bw : TF S128x128) (Bb : TF S128)
    (Cw : TF S128x128) (Cb : TF S128) (Dw : TF S128x128) (Db : TF S128) (Ew : TF S128x16) (Eb : TF S128) (g be : TF S128) : TF S100000x128 :=
  normalise (residual (Cert.Spec.projPair x (wt Aw) (asRow Ab) (wt Bw) (asRow Bb)) (Cert.Spec.proj x (wt Cw) (asRow Cb))
    x ei ea Dw Db Ew Eb) g be

end Cert.KernelIdeal.KStage

end
-- ==== Proof.MatmulBlock.lean ====
/-
  One block of an affine map, read at an entry: the product of a 5000 × 128 block with a 128 × 128 weight (into a
  zero accumulator) plus a row vector repeated down the rows is, at (p, q), the sum over k of x[p, k] · w[k, q],
  plus b[0, q].
-/
import proofs.«423304_j31404800868644_3_alg».proof.KernelIdeal
import proofs.«423304_j31404800868644_3_alg».proof.Proof.Gen.KernelIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.MatmulBlock

open Cert.KernelIdeal Cert.KernelIdeal.Facts₀ Cert.KernelIdeal.Facts Idealize.ShloMosaic Idealize.ShloMosaic.ValueIdx
open scoped BigOperators

/-! The operand positions of the block product, axis by axis: at entry `j` and contraction position `k` the left
operand is read at (row of `j`, `k`) and the right operand at (`k`, column of `j`). -/

/-- On the row axis the left operand reads the entry's row. -/
private theorem lhs_row (j : S5000x128.Idx) (k : dot_S5000x128_S128x128_S5000x128_1_0_0_1_n_n.contr.Idx) :
    (dot_S5000x128_S128x128_S5000x128_1_0_0_1_n_n.lhsIdx j k 0 : ℕ) = j 0 := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the column axis the left operand reads the contraction position. -/
private theorem lhs_col (j : S5000x128.Idx) (k : dot_S5000x128_S128x128_S5000x128_1_0_0_1_n_n.contr.Idx) :
    (dot_S5000x128_S128x128_S5000x128_1_0_0_1_n_n.lhsIdx j k 1 : ℕ) = k ⟨0, by decide⟩ :=
  dot_S5000x128_S128x128_S5000x128_1_0_0_1_n_n.lhsIdx_val_of_single rfl j k

/-- On the row axis the right operand reads the contraction position. -/
private theorem rhs_row (j : S5000x128.Idx) (k : dot_S5000x128_S128x128_S5000x128_1_0_0_1_n_n.contr.Idx) :
    (dot_S5000x128_S128x128_S5000x128_1_0_0_1_n_n.rhsIdx j k 0 : ℕ) = k ⟨0, by decide⟩ :=
  dot_S5000x128_S128x128_S5000x128_1_0_0_1_n_n.rhsIdx_val_of_single rfl j k

/-- On the column axis the right operand reads the entry's column. -/
private theorem rhs_col (j : S5000x128.Idx) (k : dot_S5000x128_S128x128_S5000x128_1_0_0_1_n_n.contr.Idx) :
    (dot_S5000x128_S128x128_S5000x128_1_0_0_1_n_n.rhsIdx j k 1 : ℕ) = j 1 := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block's affine map at an entry. -/
theorem affine_block_apply (x : FVec Ideal S5000x128 .f32) (w : FVec Ideal S128x128 .f32) (b : FVec Ideal S1x128 .f32)
    (p : Fin 5000) (q : Fin 128) :
    addf (matmul dot_S5000x128_S128x128_S5000x128_1_0_0_1_n_n (some .fp32) x
        (shapeCast S128x128 w shapeCasts_S128x128_S128x128) (constant S5000x128 .f32 0x00000000#32))
      (broadcastTo S5000x128 (shapeCast S1x128 b shapeCasts_S1x128_S1x128) broadcasts_S1x128_S5000x128) (ix2 p q)
    = (∑ k : Fin 128, x (ix2 p k) * w (ix2 k q)) + b (ix2 (0 : Fin 1) q) := by
  -- the sum reads entrywise, the repeated row reads its one row, and a cast to the same shape is the identity
  rw [addf_apply, broadcastTo_1b_ab_apply, shapeCast_self, shapeCast_self]
  congr 1
  -- into the zero accumulator the product is the sum over the contraction positions, re-indexed by the one coordinate
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  congr 1
  · refine congrArg x (funext fun a => Fin.ext ?_)
    match a with
    | ⟨0, _⟩ => exact lhs_row _ _
    | ⟨1, _⟩ => exact (lhs_col _ _).trans hk
  · refine congrArg w (funext fun a => Fin.ext ?_)
    match a with
    | ⟨0, _⟩ => exact (rhs_row _ _).trans hk
    | ⟨1, _⟩ => exact rhs_col _ _

end Cert.KernelIdeal.MatmulBlock

end
-- ==== Proof.Region0.lean ====
/-
  The first tiled stage, over the extended reals. Its grid has 20 points; point t handles rows 5000·t … 5000·t + 4999.
  For each block of rows it forms three affine maps of the block (a product with a 128 × 128 weight plus a row
  vector) and writes the first two side by side into a 256-column table and the third into a 128-column table.
  Since the 20 blocks tile the 100000 rows, the two tables end as `Spec.projPair` and `Spec.proj` of the
  whole arrays the stage was entered with.
-/
import proofs.«423304_j31404800868644_3_alg».proof.Proof.Gen.KernelIdeal.Frame
import proofs.«423304_j31404800868644_3_alg».proof.Proof.Spec
import proofs.«423304_j31404800868644_3_alg».proof.Proof.MatmulBlock
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offsets of a whole-buffer access, as a constant function. -/
private theorem zero2 : (![0, 0] : Fin 2 → Nat) = fun _ => 0 := funext fun a => by fin_cases a <;> rfl

/-- The index maps over the grid: the row-tiled windows sit at block (t, 0), the weights and row vectors at (0, 0). -/
private theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- One affine map of a block: the product with a weight into a zero accumulator, plus a row vector down the rows. -/
private abbrev affineBlock (x : FVec Ideal S5000x128 .f32) (w : FVec Ideal S128x128 .f32) (b : FVec Ideal S1x128 .f32) :
    FVec Ideal S5000x128 .f32 :=
  addf (matmul dot_S5000x128_S128x128_S5000x128_1_0_0_1_n_n (some .fp32) x
      (shapeCast S128x128 w shapeCasts_S128x128_S128x128) (constant S5000x128 .f32 0x00000000#32))
    (broadcastTo S5000x128 (shapeCast S1x128 b shapeCasts_S1x128_S1x128) broadcasts_S1x128_S5000x128)

/-- The first payload is two affine maps of the block side by side along the columns. -/
private theorem pay1_eq (x : Vec Ideal S5000x128 .f32) (wa : Vec Ideal S128x128 .f32) (ba : Vec Ideal S1x128 .f32)
    (wb : Vec Ideal S128x128 .f32) (bb : Vec Ideal S1x128 .f32) :
    k0_pay1 x wa ba wb bb = concatenate S5000x256 1 [⟨S5000x128, affineBlock x wa ba⟩, ⟨S5000x128, affineBlock x wb bb⟩]
      concatenates_S5000x128_S5000x128_S5000x256_d1 := rfl

/-- The first payload at an entry: column q < 128 is the first affine map's column q, column 128 + q the second's. -/
private theorem pay1_apply (x : Vec Ideal S5000x128 .f32) (wa : Vec Ideal S128x128 .f32) (ba : Vec Ideal S1x128 .f32)
    (wb : Vec Ideal S128x128 .f32) (bb : Vec Ideal S1x128 .f32) (p : Fin 5000) (q : Fin 256) :
    k0_pay1 x wa ba wb bb (ix2 p q)
      = if h : q.val < 128 then (∑ k : Fin 128, x (ix2 p k) * wa (ix2 k ⟨q.val, h⟩)) + ba (ix2 (0 : Fin 1) ⟨q.val, h⟩)
        else (∑ k : Fin 128, x (ix2 p k) * wb (ix2 k ⟨q.val - 128, by have := q.isLt; omega⟩))
          + bb (ix2 (0 : Fin 1) ⟨q.val - 128, by have := q.isLt; omega⟩) := by
  rw [pay1_eq]
  by_cases h : q.val < 128
  · rw [dif_pos h]
    refine (concatenate_pair_apply_left (t := S5000x256) (s₁ := S5000x128) (s₂ := S5000x128) (1 : Fin 2) _ _
      concatenates_S5000x128_S5000x128_S5000x256_d1 (ix2 p q) rfl (ix2 p ⟨q.val, h⟩)
      (fun b => match b with | ⟨0, _⟩ => rfl | ⟨1, _⟩ => rfl)).trans ?_
    exact MatmulBlock.affine_block_apply x wa ba p ⟨q.val, h⟩
  · rw [dif_neg h]
    have hq : q.val - 128 < 128 := by have := q.isLt; omega
    refine (concatenate_pair_apply_right (t := S5000x256) (s₁ := S5000x128) (s₂ := S5000x128) (1 : Fin 2) _ _
      concatenates_S5000x128_S5000x128_S5000x256_d1 (ix2 p q) rfl rfl (ix2 p ⟨q.val - 128, hq⟩)
      (fun b => match b with | ⟨0, _⟩ => fun _ => rfl | ⟨1, _⟩ => fun hb => absurd rfl hb)
      (by show q.val - 128 + 128 = q.val; omega)).trans ?_
    exact MatmulBlock.affine_block_apply x wb bb p ⟨q.val - 128, hq⟩

/-- The third payload at an entry: the affine map of the block. -/
private theorem pay2_apply (x : Vec Ideal S5000x128 .f32) (w : Vec Ideal S128x128 .f32) (b : Vec Ideal S1x128 .f32)
    (p : Fin 5000) (q : Fin 128) :
    k0_pay2 x w b (ix2 p q) = (∑ k : Fin 128, x (ix2 p k) * w (ix2 k q)) + b (ix2 (0 : Fin 1) q) :=
  MatmulBlock.affine_block_apply x w b p q

/-- Block t of the affine map of the whole arrays, at an entry: the block's rows are rows 5000·t + p of the array,
    the weight and the row vector are read whole. -/
private theorem proj_block (t : Fin cfg0.N) (p : Fin 5000) (q : Fin 128)
    (X : Cert.Spec.Rows.Idx → EReal) (W : Cert.Spec.Sq.Idx → EReal) (B : Cert.Spec.Row1.Idx → EReal) :
    (∑ k : Fin 128, X (((cfg0.win 0).blk t).view.emb (ix2 p k)) * W (((cfg0.win 5).blk t).view.emb (ix2 k q)))
        + B (((cfg0.win 6).blk t).view.emb (ix2 (0 : Fin 1) q))
      = Cert.Spec.proj X W B (((cfg0.win 8).blk t).view.emb (ix2 p q)) := by
  obtain ⟨a00, a01, a10, a11, a20, a21, a30, a31, a40, a41, a50, a51, a60, a61, a70, a71, a80, a81⟩ := index_facts t
  unfold Cert.Spec.proj
  refine congrArg₂ (· + ·) (Finset.sum_congr rfl fun k _ => congrArg₂ (· * ·) (congrArg X ?_) (congrArg W ?_)) (congrArg B ?_)
  · refine Shape.idx_ext₂ ?_ ?_
    · show win0_0.index t (0 : Fin 2) * 5000 + 1 * p.val = win0_8.index t (0 : Fin 2) * 5000 + 1 * p.val; omega
    · show win0_0.index t (1 : Fin 2) * 128 + 1 * k.val = k.val; omega
  · refine Shape.idx_ext₂ ?_ ?_
    · show win0_5.index t (0 : Fin 2) * 128 + 1 * k.val = k.val; omega
    · show win0_5.index t (1 : Fin 2) * 128 + 1 * q.val = win0_8.index t (1 : Fin 2) * 128 + 1 * q.val; omega
  · refine Shape.idx_ext₂ ?_ ?_
    · show win0_6.index t (0 : Fin 2) * 1 + 1 * 0 = 0; omega
    · show win0_6.index t (1 : Fin 2) * 128 + 1 * q.val = win0_8.index t (1 : Fin 2) * 128 + 1 * q.val; omega

/-- Two tables side by side, at an index whose column is below 128: the first table. -/
private theorem pair_left (P Q : Cert.Spec.Rows.Idx → EReal) (i : Cert.Spec.Rows2.Idx) (h : (i 1).val < 128) :
    Cert.Spec.pair P Q i = P (ix2 (i 0) ⟨(i 1).val, h⟩) := dif_pos h

/-- Two tables side by side, at an index whose column is 128 or more: the second table, 128 columns back. -/
private theorem pair_right (P Q : Cert.Spec.Rows.Idx → EReal) (i : Cert.Spec.Rows2.Idx) (h : ¬ (i 1).val < 128) :
    Cert.Spec.pair P Q i = Q (ix2 (i 0) ⟨(i 1).val - 128, by have h2 : (i 1).val < 256 := (i 1).isLt; omega⟩) := dif_neg h

/-- Block t of the two affine maps side by side, at an entry: the block's rows are rows 5000·t + p of the array and
    its 256 columns the array's; the weights and row vectors are read whole. -/
private theorem projPair_block (t : Fin cfg0.N) (p : Fin 5000) (q : Fin 256)
    (X : Cert.Spec.Rows.Idx → EReal) (Wa : Cert.Spec.Sq.Idx → EReal) (Ba : Cert.Spec.Row1.Idx → EReal)
    (Wb : Cert.Spec.Sq.Idx → EReal) (Bb : Cert.Spec.Row1.Idx → EReal) :
    (if h : q.val < 128 then
        (∑ k : Fin 128, X (((cfg0.win 0).blk t).view.emb (ix2 p k)) * Wa (((cfg0.win 1).blk t).view.emb (ix2 k ⟨q.val, h⟩)))
          + Ba (((cfg0.win 2).blk t).view.emb (ix2 (0 : Fin 1) ⟨q.val, h⟩))
      else
        (∑ k : Fin 128, X (((cfg0.win 0).blk t).view.emb (ix2 p k))
            * Wb (((cfg0.win 3).blk t).view.emb (ix2 k ⟨q.val - 128, by have := q.isLt; omega⟩)))
          + Bb (((cfg0.win 4).blk t).view.emb (ix2 (0 : Fin 1) ⟨q.val - 128, by have := q.isLt; omega⟩)))
      = Cert.Spec.projPair X Wa Ba Wb Bb (((cfg0.win 7).blk t).view.emb (ix2 p q)) := by
  obtain ⟨a00, a01, a10, a11, a20, a21, a30, a31, a40, a41, a50, a51, a60, a61, a70, a71, a80, a81⟩ := index_facts t
  have hq : q.val < 256 := q.isLt
  have hcol : ((((cfg0.win 7).blk t).view.emb (ix2 p q) : Cert.Spec.Rows2.Idx) 1).val = q.val := by
    show win0_7.index t (1 : Fin 2) * 256 + 1 * q.val = q.val; omega
  unfold Cert.Spec.projPair
  by_cases h : q.val < 128
  · rw [dif_pos h, pair_left _ _ _ (by rw [hcol]; exact h)]
    unfold Cert.Spec.proj
    refine congrArg₂ (· + ·) (Finset.sum_congr rfl fun k _ => congrArg₂ (· * ·) (congrArg X ?_) (congrArg Wa ?_)) (congrArg Ba ?_)
    · refine Shape.idx_ext₂ ?_ ?_
      · show win0_0.index t (0 : Fin 2) * 5000 + 1 * p.val = win0_7.index t (0 : Fin 2) * 5000 + 1 * p.val; omega
      · show win0_0.index t (1 : Fin 2) * 128 + 1 * k.val = k.val; omega
    · refine Shape.idx_ext₂ ?_ ?_
      · show win0_1.index t (0 : Fin 2) * 128 + 1 * k.val = k.val; omega
      · show win0_1.index t (1 : Fin 2) * 128 + 1 * q.val = win0_7.index t (1 : Fin 2) * 256 + 1 * q.val; omega
    · refine Shape.idx_ext₂ ?_ ?_
      · show win0_2.index t (0 : Fin 2) * 1 + 1 * 0 = 0; omega
      · show win0_2.index t (1 : Fin 2) * 128 + 1 * q.val = win0_7.index t (1 : Fin 2) * 256 + 1 * q.val; omega
  · rw [dif_neg h, pair_right _ _ _ (by rw [hcol]; exact h)]
    unfold Cert.Spec.proj
    refine congrArg₂ (· + ·) (Finset.sum_congr rfl fun k _ => congrArg₂ (· * ·) (congrArg X ?_) (congrArg Wb ?_)) (congrArg Bb ?_)
    · refine Shape.idx_ext₂ ?_ ?_
      · show win0_0.index t (0 : Fin 2) * 5000 + 1 * p.val = win0_7.index t (0 : Fin 2) * 5000 + 1 * p.val; omega
      · show win0_0.index t (1 : Fin 2) * 128 + 1 * k.val = k.val; omega
    · refine Shape.idx_ext₂ ?_ ?_
      · show win0_3.index t (0 : Fin 2) * 128 + 1 * k.val = k.val; omega
      · show win0_3.index t (1 : Fin 2) * 128 + 1 * (q.val - 128) = win0_7.index t (1 : Fin 2) * 256 + 1 * q.val - 128; omega
    · refine Shape.idx_ext₂ ?_ ?_
      · show win0_4.index t (0 : Fin 2) * 1 + 1 * 0 = 0; omega
      · show win0_4.index t (1 : Fin 2) * 128 + 1 * (q.val - 128) = win0_7.index t (1 : Fin 2) * 256 + 1 * q.val - 128; omega

/- The contents of the buffers when the stage is entered: every statement below holds for any of them. -/
variable (V : (c : Dev nD) → (b : Ref sig .tc) → Buf (Elt Ideal) ((c : Thread nD τ).loc b))

/-- What point t writes back to the 256-column table is block t of the two affine maps of the whole arrays. -/
private theorem flushed7_eq (c : Dev nD) (t : Fin cfg0.N) :
    (dat0 (F := Ideal) V c).flushed 7 t
      = ((cfg0.win 7).blk t).view.read (Elt Ideal)
          (Cert.Spec.projPair (V c main_arg0) (V c main_v4) (V c main_v8) (V c main_v5) (V c main_v9)) := by
  show (cfg0.win 7).cut (grid0.coords t) ((dat0 V c).after 7 t) = _
  rw [after0_7]
  unfold out0_7
  rw [View.canon_unit_zero zero2]
  simp only [View.ld_unit_zero (S := S5000x128) zero2, View.ld_unit_zero (S := S128x128) zero2, View.ld_unit_zero (S := S1x128) zero2]
  funext j
  obtain ⟨p, q, rfl⟩ : ∃ (p : Fin 5000) (q : Fin 256), j = ix2 p q := ⟨j 0, j 1, eq_ix2 j⟩
  refine (pay1_apply (iblk0 V c 0 t) (iblk0 V c 1 t) (iblk0 V c 2 t) (iblk0 V c 3 t) (iblk0 V c 4 t) p q).trans ?_
  exact projPair_block t p q (V c main_arg0) (V c main_v4) (V c main_v8) (V c main_v5) (V c main_v9)

/-- An index of the 256-column table is in point t's block iff each coordinate is in the block's range. -/
private theorem mem_blk7 (t : Fin cfg0.N) (i : S100000x256.Idx) :
    i ∈ ((cfg0.win 7).blk t).view.set ↔ ∀ a : Fin 2, win0_7.index t a * S5000x256.size a ≤ (i a).val
      ∧ (i a).val < win0_7.index t a * S5000x256.size a + S5000x256.size a := by
  show i ∈ ((View.whole main_v11_0).slice (win0_7.rect t)).set ↔ _
  rw [View.set_slice_whole, Rect.mem_set_unit]
  exact Iff.rfl

/-- Row r of the 256-column table lies in the block of point r / 5000. -/
private theorem cover7 (i : S100000x256.Idx) :
    ∃ t : Fin cfg0.N, (cfg0.win 7).flush t = true ∧ i ∈ ((cfg0.win 7).blk t).view.set := by
  have h0 : (i 0).val < 100000 := (i 0).isLt
  have h1 : (i 1).val < 256 := (i 1).isLt
  have ht : (i 0).val / 5000 < 20 := by omega
  refine ⟨⟨(i 0).val / 5000, ht⟩, flush0_7 _, ?_⟩
  obtain ⟨a00, a01, a10, a11, a20, a21, a30, a31, a40, a41, a50, a51, a60, a61, a70, a71, a80, a81⟩ := index_facts ⟨(i 0).val / 5000, ht⟩
  rw [mem_blk7]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [a70]; show (i 0).val / 5000 * 5000 ≤ (i 0).val ∧ (i 0).val < (i 0).val / 5000 * 5000 + 5000; omega
  | ⟨1, _⟩ =>
    show win0_7.index ⟨(i 0).val / 5000, ht⟩ (1 : Fin 2) * 256 ≤ (i 1).val
      ∧ (i 1).val < win0_7.index ⟨(i 0).val / 5000, ht⟩ (1 : Fin 2) * 256 + 256
    rw [a71]; omega

/-- The 256-column table after the stage: the two affine maps of the node rows, side by side. -/
theorem final0_7 (c : Dev nD) : (dat0 (F := Ideal) V c).arrAt 7 cfg0.N
    = Cert.Spec.projPair (V c main_arg0) (V c main_v4) (V c main_v8) (V c main_v5) (V c main_v9) :=
  (dat0 (F := Ideal) V c).arrAt_eq_of_cover 7
    (Cert.Spec.projPair (V c main_arg0) (V c main_v4) (V c main_v8) (V c main_v5) (V c main_v9))
    (fun t _ => flushed7_eq V c t) cover7

/-- What point t writes back to the 128-column table is block t of the third affine map of the whole arrays. -/
private theorem flushed8_eq (c : Dev nD) (t : Fin cfg0.N) :
    (dat0 (F := Ideal) V c).flushed 8 t
      = ((cfg0.win 8).blk t).view.read (Elt Ideal) (Cert.Spec.proj (V c main_arg0) (V c main_v6) (V c main_v10)) := by
  show (cfg0.win 8).cut (grid0.coords t) ((dat0 V c).after 8 t) = _
  rw [after0_8]
  unfold out0_8
  rw [View.canon_unit_zero zero2]
  simp only [View.ld_unit_zero (S := S5000x128) zero2, View.ld_unit_zero (S := S128x128) zero2, View.ld_unit_zero (S := S1x128) zero2]
  funext j
  obtain ⟨p, q, rfl⟩ : ∃ (p : Fin 5000) (q : Fin 128), j = ix2 p q := ⟨j 0, j 1, eq_ix2 j⟩
  refine (pay2_apply (iblk0 V c 0 t) (iblk0 V c 5 t) (iblk0 V c 6 t) p q).trans ?_
  exact proj_block t p q (V c main_arg0) (V c main_v6) (V c main_v10)

/-- An index of the 128-column table is in point t's block iff each coordinate is in the block's range. -/
private theorem mem_blk8 (t : Fin cfg0.N) (i : S100000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v11_1).slice (win0_8.rect t)).set ↔ _
  rw [View.set_slice_whole, Rect.mem_set_unit]
  exact Iff.rfl

/-- Row r of the 128-column table lies in the block of point r / 5000. -/
private theorem cover8 (i : S100000x128.Idx) :
    ∃ t : Fin cfg0.N, (cfg0.win 8).flush t = true ∧ i ∈ ((cfg0.win 8).blk t).view.set := by
  have h0 : (i 0).val < 100000 := (i 0).isLt
  have h1 : (i 1).val < 128 := (i 1).isLt
  have ht : (i 0).val / 5000 < 20 := by omega
  refine ⟨⟨(i 0).val / 5000, ht⟩, flush0_8 _, ?_⟩
  obtain ⟨a00, a01, a10, a11, a20, a21, a30, a31, a40, a41, a50, a51, a60, a61, a70, a71, a80, a81⟩ := index_facts ⟨(i 0).val / 5000, ht⟩
  rw [mem_blk8]
  intro a
  match a with
  | ⟨0, _⟩ =>
    show win0_8.index ⟨(i 0).val / 5000, ht⟩ (0 : Fin 2) * 5000 ≤ (i 0).val
      ∧ (i 0).val < win0_8.index ⟨(i 0).val / 5000, ht⟩ (0 : Fin 2) * 5000 + 5000
    rw [a80]; show (i 0).val / 5000 * 5000 ≤ (i 0).val ∧ (i 0).val < (i 0).val / 5000 * 5000 + 5000; omega
  | ⟨1, _⟩ =>
    show win0_8.index ⟨(i 0).val / 5000, ht⟩ (1 : Fin 2) * 128 ≤ (i 1).val
      ∧ (i 1).val < win0_8.index ⟨(i 0).val / 5000, ht⟩ (1 : Fin 2) * 128 + 128
    rw [a81]; omega

/-- The 128-column table after the stage: the third affine map of the node rows. -/
theorem final0_8 (c : Dev nD) : (dat0 (F := Ideal) V c).arrAt 8 cfg0.N
    = Cert.Spec.proj (V c main_arg0) (V c main_v6) (V c main_v10) :=
  (dat0 (F := Ideal) V c).arrAt_eq_of_cover 8 (Cert.Spec.proj (V c main_arg0) (V c main_v6) (V c main_v10))
    (fun t _ => flushed8_eq V c t) cover8

end Cert.KernelIdeal.RegionVal

end
-- ==== Proof.Region1.lean ====
/-
  The second tiled stage, over the extended reals: for each block of 5000 rows, the aggregated messages times the
  logistic gate of an affine map of the node rows, plus the node rows. The 20 blocks tile the rows, so the
  output array ends as `Spec.combine` of the whole arrays the stage was entered with.
-/
import proofs.«423304_j31404800868644_3_alg».proof.Proof.Gen.KernelIdeal.Frame
import proofs.«423304_j31404800868644_3_alg».proof.Proof.Spec
import proofs.«423304_j31404800868644_3_alg».proof.Proof.MatmulBlock
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

/- The contents of the buffers when the stage is entered: every statement below holds for any of them. -/
variable (V : (c : Dev nD) → (b : Ref sig .tc) → Buf (Elt Ideal) ((c : Thread nD τ).loc b))

/-- A whole block's rectangle starts at the origin. -/
private theorem origin_eq : (![0, 0] : Fin 2 → Nat) = fun _ => 0 := funext fun a => by fin_cases a <;> rfl

/-- The logistic of a vector, read at an index, is the logistic of the entry. -/
private theorem logistic_apply {s : Shape} {φ : FTy} (a : FVec Ideal s φ) (i : s.Idx) :
    logistic a i = Ideal.logistic (a i) := rfl

/-- The body's value at entry (p, q) of a block: the aggregated entry times the logistic gate of the affine
    map of row p, plus the row's own entry. -/
private theorem combine_block_apply (x : Vec Ideal S5000x128 .f32) (w : Vec Ideal S128x128 .f32)
    (b : Vec Ideal S1x128 .f32) (agg : Vec Ideal S5000x128 .f32) (p : Fin 5000) (q : Fin 128) :
    k1_pay1 x w b agg (ix2 p q)
      = agg (ix2 p q) * Ideal.logistic ((∑ k : Fin 128, x (ix2 p k) * w (ix2 k q)) + b (ix2 (0 : Fin 1) q))
          + x (ix2 p q) := by
  unfold k1_pay1
  rw [addf_apply, mulf_apply, shapeCast_self agg, logistic_apply, MatmulBlock.affine_block_apply]

/-- Where each window's block sits at grid point t: the two row-tiled inputs and the output at block row t,
    the weight and the row vector fixed. -/
private theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated input's block at grid point t holds rows 5000·t … 5000·t + 4999 of its array. -/
private theorem agg_block_apply (c : Dev nD) (t : Fin cfg1.N) (p : Fin 5000) (q : Fin 128) (r : Fin 100000)
    (hr : r.val = 5000 * t.val + p.val) :
    (iblk1 V c 0 t : Vec Ideal S5000x128 .f32) (ix2 p q) = (V c main_v44 : S100000x128.Idx → EReal) (ix2 r q) := by
  obtain ⟨e0, e1, -⟩ := index_facts t
  unfold iblk1
  rw [View.read_apply]
  show V c main_v44 _ = V c main_v44 _
  congr 1
  funext a; apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- The node rows' block at grid point t holds rows 5000·t … 5000·t + 4999 of their array. -/
private theorem rows_block_apply (c : Dev nD) (t : Fin cfg1.N) (p : Fin 5000) (q : Fin 128) (r : Fin 100000)
    (hr : r.val = 5000 * t.val + p.val) :
    (iblk1 V c 1 t : Vec Ideal S5000x128 .f32) (ix2 p q) = (V c main_arg0 : S100000x128.Idx → EReal) (ix2 r q) := by
  obtain ⟨-, -, e0, e1, -⟩ := index_facts t
  unfold iblk1
  rw [View.read_apply]
  show V c main_arg0 _ = V c main_arg0 _
  congr 1
  funext a; apply Fin.ext
  match a with
  | ⟨0, _⟩ => show win1_1.index t (0 : Fin 2) * 5000 + 1 * p.val = r.val; rw [e0, hr]; omega
  | ⟨1, _⟩ => show win1_1.index t (1 : Fin 2) * 128 + 1 * q.val = q.val; rw [e1]; omega

/-- The weight's block is the whole weight at every grid point. -/
private theorem weight_block (c : Dev nD) (t : Fin cfg1.N) :
    (iblk1 V c 2 t : Vec Ideal S128x128 .f32) = (V c main_v7 : S128x128.Idx → EReal) := by
  obtain ⟨-, -, -, -, e0, e1, -⟩ := index_facts t
  funext x
  unfold iblk1
  rw [View.read_apply]
  show V c main_v7 _ = V c main_v7 _
  congr 1
  funext a; apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The row vector's block is the whole vector at every grid point. -/
private theorem bias_block (c : Dev nD) (t : Fin cfg1.N) :
    (iblk1 V c 3 t : Vec Ideal S1x128 .f32) = (V c main_v45 : S1x128.Idx → EReal) := by
  obtain ⟨-, -, -, -, -, -, e0, e1, -⟩ := index_facts t
  funext x
  unfold iblk1
  rw [View.read_apply]
  show V c main_v45 _ = V c main_v45 _
  congr 1
  funext a; apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- Entry (p, q) of the output's block at grid point t is entry (5000·t + p, q) of the output array. -/
private theorem out_emb (t : Fin cfg1.N) (p : Fin 5000) (q : Fin 128) (r : Fin 100000)
    (hr : r.val = 5000 * t.val + p.val) :
    ((cfg1.win 4).blk t).view.emb (ix2 p q) = (ix2 r q : S100000x128.Idx) := by
  obtain ⟨-, -, -, -, -, -, -, -, e0, e1⟩ := index_facts t
  funext a; apply Fin.ext
  match a with
  | ⟨0, _⟩ => show win1_4.index t (0 : Fin 2) * 5000 + 1 * p.val = r.val; rw [e0, hr]; omega
  | ⟨1, _⟩ => show win1_4.index t (1 : Fin 2) * 128 + 1 * q.val = q.val; rw [e1]; omega

/-- What grid point t writes back is block t of the gated residual of the whole arrays. -/
private theorem flushed_eq (c : Dev nD) (t : Fin cfg1.N) :
    (dat1 (F := Ideal) V c).flushed 4 t = ((cfg1.win 4).blk t).view.read (Elt Ideal)
      (Cert.Spec.combine (V c main_v44) (V c main_arg0) (V c main_v7) (V c main_v45)) := by
  show (cfg1.win 4).cut (grid1.coords t) ((dat1 V c).after 4 t) = _
  rw [after1_4]
  unfold out1_4
  rw [View.canon_unit_zero origin_eq]
  simp only [View.ld_unit_zero (S := S5000x128) origin_eq, View.ld_unit_zero (S := S128x128) origin_eq,
    View.ld_unit_zero (S := S1x128) origin_eq]
  funext j
  obtain ⟨p, q, rfl⟩ : ∃ (p : Fin 5000) (q : Fin 128), j = ix2 p q := ⟨j 0, j 1, eq_ix2 j⟩
  have ht : t.val < 20 := t.isLt.trans_eq N_1
  have hp : p.val < 5000 := p.isLt
  rw [View.read_apply, out_emb t p q ⟨5000 * t.val + p.val, by omega⟩ rfl]
  refine (combine_block_apply (iblk1 V c 1 t) (iblk1 V c 2 t) (iblk1 V c 3 t) (iblk1 V c 0 t) p q).trans ?_
  rw [agg_block_apply V c t p q ⟨5000 * t.val + p.val, by omega⟩ rfl,
    rows_block_apply V c t p q ⟨5000 * t.val + p.val, by omega⟩ rfl, weight_block V c t, bias_block V c t]
  simp only [fun k => rows_block_apply V c t p k ⟨5000 * t.val + p.val, by omega⟩ rfl]
  rfl

/-- An index of the output array lies in grid point t's block iff each coordinate is in the block's range. -/
private theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v46).slice (win1_4.rect t)).set ↔ _
  rw [View.set_slice_whole, Rect.mem_set_unit]
  exact Iff.rfl

/-- The 20 blocks tile the rows: row r lies in the block of grid point r / 5000, which is written back. -/
private theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  obtain ⟨t, htv⟩ : ∃ t : Fin cfg1.N, t.val = (i 0).val / 5000 := ⟨⟨(i 0).val / 5000, by rw [hN]; omega⟩, rfl⟩
  obtain ⟨-, -, -, -, -, -, -, -, e0, e1⟩ := index_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e0, htv]; omega
  | ⟨1, _⟩ =>
    show win1_4.index t (1 : Fin 2) * 128 ≤ (i 1).val ∧ (i 1).val < win1_4.index t (1 : Fin 2) * 128 + 128
    rw [e1]; omega

/-- The output array after the stage: the gated residual of the whole arrays. -/
theorem final1_4 (c : Dev nD) : (dat1 (F := Ideal) V c).arrAt 4 cfg1.N
    = Cert.Spec.combine (V c main_v44) (V c main_arg0) (V c main_v7) (V c main_v45) :=
  (dat1 (F := Ideal) V c).arrAt_eq_of_cover 4
    (Cert.Spec.combine (V c main_v44) (V c main_arg0) (V c main_v7) (V c main_v45))
    (fun t _ => flushed_eq V c t) cover

end Cert.KernelIdeal.RegionVal

end
-- ==== Proof.Region2.lean ====
/-
  The third tiled stage, over the extended reals: for each block of 5000 rows, centre and scale every column with
  the given row vectors, apply the affine pair, keep the positive part. The 20 blocks tile the rows, so the
  output array ends as `Spec.normRelu` of the whole arrays the stage was entered with.
-/
import proofs.«423304_j31404800868644_3_alg».proof.Proof.Gen.KernelIdeal.Frame
import proofs.«423304_j31404800868644_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

/- The contents of the buffers when the stage is entered: every statement below holds for any of them. -/
variable (V : (c : Dev nD) → (b : Ref sig .tc) → Buf (Elt Ideal) ((c : Thread nD τ).loc b))

/-- A whole block's rectangle starts at the origin. -/
private theorem origin_eq : (![0, 0] : Fin 2 → Nat) = fun _ => 0 := funext fun a => by fin_cases a <;> rfl

/-- The body's value at entry (p, q) of a block: centre, scale, the affine pair, the positive part. -/
private theorem normRelu_block_apply (o : Vec Ideal S5000x128 .f32) (mu s g be : Vec Ideal S1x128 .f32)
    (p : Fin 5000) (q : Fin 128) :
    k2_pay1 o mu s g be (ix2 p q)
      = max (g (ix2 (0 : Fin 1) q) * ((o (ix2 p q) - mu (ix2 (0 : Fin 1) q)) * s (ix2 (0 : Fin 1) q))
          + be (ix2 (0 : Fin 1) q)) 0 := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max _ (Ideal.ofBits .f32 0x00000000#32) = _
  rw [Ideal.ofBits_zero_f32]

/-- Where each window's block sits at grid point t: the row-tiled windows at block row t, the row vectors fixed. -/
private theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The row-tiled input's block at grid point t holds rows 5000·t … 5000·t + 4999 of its array. -/
private theorem rows_block_apply (c : Dev nD) (t : Fin cfg2.N) (p : Fin 5000) (q : Fin 128) (r : Fin 100000)
    (hr : r.val = 5000 * t.val + p.val) :
    (iblk2 V c 0 t : Vec Ideal S5000x128 .f32) (ix2 p q) = (V c main_v46 : S100000x128.Idx → EReal) (ix2 r q) := by
  obtain ⟨e0, e1, -⟩ := index_facts t
  unfold iblk2
  rw [View.read_apply]
  show V c main_v46 _ = V c main_v46 _
  congr 1
  funext a; apply Fin.ext
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- The centre vector's block is the whole vector at every grid point. -/
private theorem centre_block (c : Dev nD) (t : Fin cfg2.N) :
    (iblk2 V c 1 t : Vec Ideal S1x128 .f32) = (V c main_v56 : S1x128.Idx → EReal) := by
  obtain ⟨-, -, e0, e1, -⟩ := index_facts t
  funext x
  unfold iblk2
  rw [View.read_apply]
  show V c main_v56 _ = V c main_v56 _
  congr 1
  funext a; apply Fin.ext
  match a with
  | ⟨0, _⟩ => show win2_1.index t (0 : Fin 2) * 1 + 1 * (x 0).val = (x 0).val; rw [e0]; omega
  | ⟨1, _⟩ => show win2_1.index t (1 : Fin 2) * 128 + 1 * (x 1).val = (x 1).val; rw [e1]; omega

/-- The scale vector's block is the whole vector at every grid point. -/
private theorem scale_block (c : Dev nD) (t : Fin cfg2.N) :
    (iblk2 V c 2 t : Vec Ideal S1x128 .f32) = (V c main_v57 : S1x128.Idx → EReal) := by
  obtain ⟨-, -, -, -, e0, e1, -⟩ := index_facts t
  funext x
  unfold iblk2
  rw [View.read_apply]
  show V c main_v57 _ = V c main_v57 _
  congr 1
  funext a; apply Fin.ext
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

/-- The gain vector's block is the whole vector at every grid point. -/
private theorem gain_block (c : Dev nD) (t : Fin cfg2.N) :
    (iblk2 V c 3 t : Vec Ideal S1x128 .f32) = (V c main_v58 : S1x128.Idx → EReal) := by
  obtain ⟨-, -, -, -, -, -, e0, e1, -⟩ := index_facts t
  funext x
  unfold iblk2
  rw [View.read_apply]
  show V c main_v58 _ = V c main_v58 _
  congr 1
  funext a; apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The shift vector's block is the whole vector at every grid point. -/
private theorem shift_block (c : Dev nD) (t : Fin cfg2.N) :
    (iblk2 V c 4 t : Vec Ideal S1x128 .f32) = (V c main_v59 : S1x128.Idx → EReal) := by
  obtain ⟨-, -, -, -, -, -, -, -, e0, e1, -⟩ := index_facts t
  funext x
  unfold iblk2
  rw [View.read_apply]
  show V c main_v59 _ = V c main_v59 _
  congr 1
  funext a; apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- Entry (p, q) of the output's block at grid point t is entry (5000·t + p, q) of the output array. -/
private theorem out_emb (t : Fin cfg2.N) (p : Fin 5000) (q : Fin 128) (r : Fin 100000)
    (hr : r.val = 5000 * t.val + p.val) :
    ((cfg2.win 5).blk t).view.emb (ix2 p q) = (ix2 r q : S100000x128.Idx) := by
  obtain ⟨-, -, -, -, -, -, -, -, -, -, e0, e1⟩ := index_facts t
  funext a; apply Fin.ext
  match a with
  | ⟨0, _⟩ => show win2_5.index t (0 : Fin 2) * 5000 + 1 * p.val = r.val; rw [e0, hr]; omega
  | ⟨1, _⟩ => show win2_5.index t (1 : Fin 2) * 128 + 1 * q.val = q.val; rw [e1]; omega

/-- What grid point t writes back is block t of the normalised, rectified whole array. -/
private theorem flushed_eq (c : Dev nD) (t : Fin cfg2.N) :
    (dat2 (F := Ideal) V c).flushed 5 t = ((cfg2.win 5).blk t).view.read (Elt Ideal)
      (Cert.Spec.normRelu (V c main_v46) (V c main_v56) (V c main_v57) (V c main_v58) (V c main_v59)) := by
  show (cfg2.win 5).cut (grid2.coords t) ((dat2 V c).after 5 t) = _
  rw [after2_5]
  unfold out2_5
  rw [View.canon_unit_zero origin_eq]
  simp only [View.ld_unit_zero (S := S5000x128) origin_eq, View.ld_unit_zero (S := S1x128) origin_eq]
  funext j
  obtain ⟨p, q, rfl⟩ : ∃ (p : Fin 5000) (q : Fin 128), j = ix2 p q := ⟨j 0, j 1, eq_ix2 j⟩
  have ht : t.val < 20 := t.isLt.trans_eq N_2
  have hp : p.val < 5000 := p.isLt
  rw [View.read_apply, out_emb t p q ⟨5000 * t.val + p.val, by omega⟩ rfl]
  refine (normRelu_block_apply (iblk2 V c 0 t) (iblk2 V c 1 t) (iblk2 V c 2 t) (iblk2 V c 3 t) (iblk2 V c 4 t) p q).trans ?_
  rw [rows_block_apply V c t p q ⟨5000 * t.val + p.val, by omega⟩ rfl, centre_block V c t, scale_block V c t,
    gain_block V c t, shift_block V c t]
  rfl

/-- An index of the output array lies in grid point t's block iff each coordinate is in the block's range. -/
private theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v60).slice (win2_5.rect t)).set ↔ _
  rw [View.set_slice_whole, Rect.mem_set_unit]
  exact Iff.rfl

/-- The 20 blocks tile the rows: row r lies in the block of grid point r / 5000, which is written back. -/
private theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  obtain ⟨t, htv⟩ : ∃ t : Fin cfg2.N, t.val = (i 0).val / 5000 := ⟨⟨(i 0).val / 5000, by rw [hN]; omega⟩, rfl⟩
  obtain ⟨-, -, -, -, -, -, -, -, -, -, e0, e1⟩ := index_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e0, htv]; omega
  | ⟨1, _⟩ =>
    show win2_5.index t (1 : Fin 2) * 128 ≤ (i 1).val ∧ (i 1).val < win2_5.index t (1 : Fin 2) * 128 + 128
    rw [e1]; omega

/-- The output array after the stage: the normalised, rectified rows. -/
theorem final2_5 (c : Dev nD) : (dat2 (F := Ideal) V c).arrAt 5 cfg2.N
    = Cert.Spec.normRelu (V c main_v46) (V c main_v56) (V c main_v57) (V c main_v58) (V c main_v59) :=
  (dat2 (F := Ideal) V c).arrAt_eq_of_cover 5
    (Cert.Spec.normRelu (V c main_v46) (V c main_v56) (V c main_v57) (V c main_v58) (V c main_v59))
    (fun t _ => flushed_eq V c t) cover

end Cert.KernelIdeal.RegionVal

end
-- ==== Proof.KValue.lean ====
/-
  What the kernel program's run leaves in its result buffer, as a function of the arguments: the fold of the host
  stretches and the three tiled stages read back, stretch by stretch, to `KStage.out` of the argument arrays.
-/
import proofs.«423304_j31404800868644_3_alg».proof.Proof.Gen.KernelIdeal.Frame
import proofs.«423304_j31404800868644_3_alg».proof.Proof.KStages
import proofs.«423304_j31404800868644_3_alg».proof.Proof.Region0
import proofs.«423304_j31404800868644_3_alg».proof.Proof.Region1
import proofs.«423304_j31404800868644_3_alg».proof.Proof.Region2
import Idealize.ShloMosaic.Lib.StableHlo.Run

noncomputable section

namespace Cert.KernelIdeal.KValue

open Cert.KernelIdeal Cert.KernelIdeal.Gen Idealize.ShloMosaic Idealize.ShloMosaic.TcCoe Idealize.SL.Sem

/-! ## The host stretches, each from any contents `Z` at its start

A stretch is a straight line of whole-array operations; the buffer it leaves at a reference is the composition of the
operations on the path to that reference, applied to the contents the stretch found, and a buffer none of them writes
is as found. -/

section Stretches

variable (Z : Valuation τ sig (Elt Ideal))

/-! ### Before the first stage: the two rows of the edge list, the four weights transposed, three biases as rows -/

/-- The first row of the edge list. -/
private theorem lead_sources : StableHlo.after (hostOps0 (F := Ideal)) Z (Proc.devRef .tc main_v1)
    = KStage.sources (Z (Proc.devRef .tc main_arg1)) := by
  after_results
  rfl

/-- The second row of the edge list. -/
private theorem lead_targets : StableHlo.after (hostOps0 (F := Ideal)) Z (Proc.devRef .tc main_v3)
    = KStage.targets (Z (Proc.devRef .tc main_arg1)) := by
  after_results
  rfl

/-- The first weight transposed. -/
private theorem lead_wtA : StableHlo.after (hostOps0 (F := Ideal)) Z (Proc.devRef .tc main_v4)
    = KStage.wt (Z (Proc.devRef .tc main_arg3)) := by
  after_results
  rfl

/-- The second weight transposed. -/
private theorem lead_wtB : StableHlo.after (hostOps0 (F := Ideal)) Z (Proc.devRef .tc main_v5)
    = KStage.wt (Z (Proc.devRef .tc main_arg5)) := by
  after_results
  rfl

/-- The third weight transposed. -/
private theorem lead_wtC : StableHlo.after (hostOps0 (F := Ideal)) Z (Proc.devRef .tc main_v6)
    = KStage.wt (Z (Proc.devRef .tc main_arg7)) := by
  after_results
  rfl

/-- The fourth weight transposed. -/
private theorem lead_wtD : StableHlo.after (hostOps0 (F := Ideal)) Z (Proc.devRef .tc main_v7)
    = KStage.wt (Z (Proc.devRef .tc main_arg9)) := by
  after_results
  rfl

/-- The first bias as a row. -/
private theorem lead_rowA : StableHlo.after (hostOps0 (F := Ideal)) Z (Proc.devRef .tc main_v8)
    = KStage.asRow (Z (Proc.devRef .tc main_arg4)) := by
  after_results
  rfl

/-- The second bias as a row. -/
private theorem lead_rowB : StableHlo.after (hostOps0 (F := Ideal)) Z (Proc.devRef .tc main_v9)
    = KStage.asRow (Z (Proc.devRef .tc main_arg6)) := by
  after_results
  rfl

/-- The third bias as a row. -/
private theorem lead_rowC : StableHlo.after (hostOps0 (F := Ideal)) Z (Proc.devRef .tc main_v10)
    = KStage.asRow (Z (Proc.devRef .tc main_arg8)) := by
  after_results
  rfl

/-! The node features, the edge features and the parameters of the later stretches are not written here. -/

private theorem lead_keep_x : StableHlo.after (hostOps0 (F := Ideal)) Z (Proc.devRef .tc main_arg0)
    = Z (Proc.devRef .tc main_arg0) := by
  after_results

private theorem lead_keep_ea : StableHlo.after (hostOps0 (F := Ideal)) Z (Proc.devRef .tc main_arg2)
    = Z (Proc.devRef .tc main_arg2) := by
  after_results

private theorem lead_keep_Db : StableHlo.after (hostOps0 (F := Ideal)) Z (Proc.devRef .tc main_arg10)
    = Z (Proc.devRef .tc main_arg10) := by
  after_results

private theorem lead_keep_Ew : StableHlo.after (hostOps0 (F := Ideal)) Z (Proc.devRef .tc main_arg11)
    = Z (Proc.devRef .tc main_arg11) := by
  after_results

private theorem lead_keep_Eb : StableHlo.after (hostOps0 (F := Ideal)) Z (Proc.devRef .tc main_arg12)
    = Z (Proc.devRef .tc main_arg12) := by
  after_results

private theorem lead_keep_g : StableHlo.after (hostOps0 (F := Ideal)) Z (Proc.devRef .tc main_arg13)
    = Z (Proc.devRef .tc main_arg13) := by
  after_results

private theorem lead_keep_be : StableHlo.after (hostOps0 (F := Ideal)) Z (Proc.devRef .tc main_arg14)
    = Z (Proc.devRef .tc main_arg14) := by
  after_results

/-! ### Between the first and the second stage: the messages summed into their targets, the fourth bias as a row -/

/-- The sum of the gated messages, from the first stage's two tables and the two rows of the edge list. -/
private theorem edge_aggregate (ei : KStage.TI S2x600000)
    (hs : Z (Proc.devRef .tc main_v1) = KStage.sources ei) (ht : Z (Proc.devRef .tc main_v3) = KStage.targets ei) :
    StableHlo.after (hostOps1 (F := Ideal)) Z (Proc.devRef .tc main_v44)
    = KStage.aggregate (Z (Proc.devRef .tc main_v11_0)) (Z (Proc.devRef .tc main_v11_1))
        (KStage.edgeAffine (Z (Proc.devRef .tc main_arg2)) (Z (Proc.devRef .tc main_arg11)) (Z (Proc.devRef .tc main_arg12))) ei := by
  after_results_simp
  rw [hs, ht]
  rfl

/-- The fourth bias as a row. -/
private theorem edge_rowD : StableHlo.after (hostOps1 (F := Ideal)) Z (Proc.devRef .tc main_v45)
    = KStage.asRow (Z (Proc.devRef .tc main_arg10)) := by
  after_results_simp
  rfl

/-! The node features, the fourth weight transposed and the last stage's two parameters are not written here. -/

private theorem edge_keep_x : StableHlo.after (hostOps1 (F := Ideal)) Z (Proc.devRef .tc main_arg0)
    = Z (Proc.devRef .tc main_arg0) := by
  after_results_simp

private theorem edge_keep_wtD : StableHlo.after (hostOps1 (F := Ideal)) Z (Proc.devRef .tc main_v7)
    = Z (Proc.devRef .tc main_v7) := by
  after_results_simp

private theorem edge_keep_g : StableHlo.after (hostOps1 (F := Ideal)) Z (Proc.devRef .tc main_arg13)
    = Z (Proc.devRef .tc main_arg13) := by
  after_results_simp

private theorem edge_keep_be : StableHlo.after (hostOps1 (F := Ideal)) Z (Proc.devRef .tc main_arg14)
    = Z (Proc.devRef .tc main_arg14) := by
  after_results_simp

/-! ### Between the second and the third stage: the column means and scales of the second stage's output `o`, the
    last two parameters as rows -/

/-- The second stage's output is not written. -/
private theorem stats_keep_o : StableHlo.after (hostOps2_2 (F := Ideal)) (StableHlo.after hostOps2_1 (StableHlo.after hostOps2 Z)) (Proc.devRef .tc main_v46)
    = Z (Proc.devRef .tc main_v46) := by
  after_results_simp

/-- The column means as a row. -/
private theorem stats_mean : StableHlo.after (hostOps2_2 (F := Ideal)) (StableHlo.after hostOps2_1 (StableHlo.after hostOps2 Z)) (Proc.devRef .tc main_v56)
    = KStage.asRow (KStage.meanOf (Z (Proc.devRef .tc main_v46))) := by
  after_results_simp
  rfl

/-- The column scales as a row. -/
private theorem stats_scale : StableHlo.after (hostOps2_2 (F := Ideal)) (StableHlo.after hostOps2_1 (StableHlo.after hostOps2 Z)) (Proc.devRef .tc main_v57)
    = KStage.asRow (KStage.scaleOf (Z (Proc.devRef .tc main_v46))) := by
  after_results_simp
  rfl

/-- The weight of the normalisation as a row. -/
private theorem stats_rowG : StableHlo.after (hostOps2_2 (F := Ideal)) (StableHlo.after hostOps2_1 (StableHlo.after hostOps2 Z)) (Proc.devRef .tc main_v58)
    = KStage.asRow (Z (Proc.devRef .tc main_arg13)) := by
  after_results_simp
  rfl

/-- The offset of the normalisation as a row. -/
private theorem stats_rowBe : StableHlo.after (hostOps2_2 (F := Ideal)) (StableHlo.after hostOps2_1 (StableHlo.after hostOps2 Z)) (Proc.devRef .tc main_v59)
    = KStage.asRow (Z (Proc.devRef .tc main_arg14)) := by
  after_results_simp
  rfl

end Stretches

/-! ## The fold, boundary by boundary, at the launch contents of the arguments -/

section Run

variable (m : (ℓ : Loc nD τ sig) → Buf (Elt Ideal) ℓ) (ρ : Dev nD → PrngReg) (c : Dev nD)

/-- The launch contents of core `c`'s buffer `r`. -/
private abbrev arg (r : Ref sig .tc) : Buf (Elt Ideal) ((c.tc : Thread nD τ).loc r) := m ((c.tc : Thread nD τ).loc r)

/-- The first stage's two-table array [A x | B x]. -/
private abbrev tblAB : KStage.TF S100000x256 :=
  Cert.Spec.projPair (arg m c main_arg0) (KStage.wt (arg m c main_arg3)) (KStage.asRow (arg m c main_arg4)) (KStage.wt (arg m c main_arg5)) (KStage.asRow (arg m c main_arg6))

/-- The first stage's table C x. -/
private abbrev tblC : KStage.TF S100000x128 :=
  Cert.Spec.proj (arg m c main_arg0) (KStage.wt (arg m c main_arg7)) (KStage.asRow (arg m c main_arg8))

/-- The second stage's output: the gated residual of the summed messages. -/
private abbrev stage2 : KStage.TF S100000x128 :=
  Cert.Spec.combine (KStage.aggregate (tblAB m c) (tblC m c) (KStage.edgeAffine (arg m c main_arg2) (arg m c main_arg11) (arg m c main_arg12)) (arg m c main_arg1))
    (arg m c main_arg0) (KStage.wt (arg m c main_arg9)) (KStage.asRow (arg m c main_arg10))

/-! ### The first stage's entry: the launch contents through the first stretch -/

private theorem entry0_x : V1 (F := Ideal) m ρ c main_arg0 = arg m c main_arg0 := lead_keep_x (W0 m ρ c)
private theorem entry0_wtA : V1 (F := Ideal) m ρ c main_v4 = KStage.wt (arg m c main_arg3) := lead_wtA (W0 m ρ c)
private theorem entry0_rowA : V1 (F := Ideal) m ρ c main_v8 = KStage.asRow (arg m c main_arg4) := lead_rowA (W0 m ρ c)
private theorem entry0_wtB : V1 (F := Ideal) m ρ c main_v5 = KStage.wt (arg m c main_arg5) := lead_wtB (W0 m ρ c)
private theorem entry0_rowB : V1 (F := Ideal) m ρ c main_v9 = KStage.asRow (arg m c main_arg6) := lead_rowB (W0 m ρ c)
private theorem entry0_wtC : V1 (F := Ideal) m ρ c main_v6 = KStage.wt (arg m c main_arg7) := lead_wtC (W0 m ρ c)
private theorem entry0_rowC : V1 (F := Ideal) m ρ c main_v10 = KStage.asRow (arg m c main_arg8) := lead_rowC (W0 m ρ c)

/-! ### The first stage's exit: its two output arrays hold the two tables; an input array holds what it held; every
    other buffer is as the first stretch left it -/

private theorem exit0_AB : W2 (F := Ideal) m ρ c (Proc.devRef .tc main_v11_0) = tblAB m c := by
  rw [show W2 (F := Ideal) m ρ c (Proc.devRef .tc main_v11_0) = (dat0 (V1 m ρ) c).arrAt 7 cfg0.N from W2_arr m ρ c 7,
    RegionVal.final0_7, entry0_x, entry0_wtA, entry0_rowA, entry0_wtB, entry0_rowB]

private theorem exit0_Cx : W2 (F := Ideal) m ρ c (Proc.devRef .tc main_v11_1) = tblC m c := by
  rw [show W2 (F := Ideal) m ρ c (Proc.devRef .tc main_v11_1) = (dat0 (V1 m ρ) c).arrAt 8 cfg0.N from W2_arr m ρ c 8,
    RegionVal.final0_8, entry0_x, entry0_wtC, entry0_rowC]

private theorem exit0_x : W2 (F := Ideal) m ρ c (Proc.devRef .tc main_arg0) = arg m c main_arg0 :=
  ((W2_arr m ρ c 0).trans (((dat0 (V1 m ρ) c).arrAt_in 0 rfl _).trans (A_eq0 (V1 m ρ) c 0))).trans (entry0_x m ρ c)

private theorem exit0_sources : W2 (F := Ideal) m ρ c (Proc.devRef .tc main_v1) = KStage.sources (arg m c main_arg1) :=
  (W2_of_ne m ρ c main_v1 (by decide)).trans (lead_sources (W0 m ρ c))
private theorem exit0_targets : W2 (F := Ideal) m ρ c (Proc.devRef .tc main_v3) = KStage.targets (arg m c main_arg1) :=
  (W2_of_ne m ρ c main_v3 (by decide)).trans (lead_targets (W0 m ρ c))
private theorem exit0_wtD : W2 (F := Ideal) m ρ c (Proc.devRef .tc main_v7) = KStage.wt (arg m c main_arg9) :=
  (W2_of_ne m ρ c main_v7 (by decide)).trans (lead_wtD (W0 m ρ c))
private theorem exit0_ea : W2 (F := Ideal) m ρ c (Proc.devRef .tc main_arg2) = arg m c main_arg2 :=
  (W2_of_ne m ρ c main_arg2 (by decide)).trans (lead_keep_ea (W0 m ρ c))
private theorem exit0_Db : W2 (F := Ideal) m ρ c (Proc.devRef .tc main_arg10) = arg m c main_arg10 :=
  (W2_of_ne m ρ c main_arg10 (by decide)).trans (lead_keep_Db (W0 m ρ c))
private theorem exit0_Ew : W2 (F := Ideal) m ρ c (Proc.devRef .tc main_arg11) = arg m c main_arg11 :=
  (W2_of_ne m ρ c main_arg11 (by decide)).trans (lead_keep_Ew (W0 m ρ c))
private theorem exit0_Eb : W2 (F := Ideal) m ρ c (Proc.devRef .tc main_arg12) = arg m c main_arg12 :=
  (W2_of_ne m ρ c main_arg12 (by decide)).trans (lead_keep_Eb (W0 m ρ c))
private theorem exit0_g : W2 (F := Ideal) m ρ c (Proc.devRef .tc main_arg13) = arg m c main_arg13 :=
  (W2_of_ne m ρ c main_arg13 (by decide)).trans (lead_keep_g (W0 m ρ c))
private theorem exit0_be : W2 (F := Ideal) m ρ c (Proc.devRef .tc main_arg14) = arg m c main_arg14 :=
  (W2_of_ne m ρ c main_arg14 (by decide)).trans (lead_keep_be (W0 m ρ c))

/-! ### The second stage's entry: the first stage's exit through the edge stretch -/

private theorem entry1_agg : V3 (F := Ideal) m ρ c main_v44
    = KStage.aggregate (tblAB m c) (tblC m c) (KStage.edgeAffine (arg m c main_arg2) (arg m c main_arg11) (arg m c main_arg12)) (arg m c main_arg1) := by
  rw [show V3 (F := Ideal) m ρ c main_v44 = _ from
      edge_aggregate (W2 m ρ c) (arg m c main_arg1) (exit0_sources m ρ c) (exit0_targets m ρ c),
    exit0_AB, exit0_Cx, exit0_ea, exit0_Ew, exit0_Eb]

private theorem entry1_x : V3 (F := Ideal) m ρ c main_arg0 = arg m c main_arg0 :=
  (edge_keep_x (W2 m ρ c)).trans (exit0_x m ρ c)
private theorem entry1_wtD : V3 (F := Ideal) m ρ c main_v7 = KStage.wt (arg m c main_arg9) :=
  (edge_keep_wtD (W2 m ρ c)).trans (exit0_wtD m ρ c)
private theorem entry1_rowD : V3 (F := Ideal) m ρ c main_v45 = KStage.asRow (arg m c main_arg10) :=
  (edge_rowD (W2 m ρ c)).trans (congrArg KStage.asRow (exit0_Db m ρ c))

/-! ### The second stage's exit: its output array holds the gated residual -/

private theorem exit1_o : W4 (F := Ideal) m ρ c (Proc.devRef .tc main_v46) = stage2 m c := by
  rw [show W4 (F := Ideal) m ρ c (Proc.devRef .tc main_v46) = (dat1 (V3 m ρ) c).arrAt 4 cfg1.N from W4_arr m ρ c 4,
    RegionVal.final1_4, entry1_agg, entry1_x, entry1_wtD, entry1_rowD]

private theorem exit1_g : W4 (F := Ideal) m ρ c (Proc.devRef .tc main_arg13) = arg m c main_arg13 :=
  (W4_of_ne m ρ c main_arg13 (by decide)).trans ((edge_keep_g (W2 m ρ c)).trans (exit0_g m ρ c))
private theorem exit1_be : W4 (F := Ideal) m ρ c (Proc.devRef .tc main_arg14) = arg m c main_arg14 :=
  (W4_of_ne m ρ c main_arg14 (by decide)).trans ((edge_keep_be (W2 m ρ c)).trans (exit0_be m ρ c))

/-! ### The third stage's entry: the second stage's exit through the statistics stretch -/

private theorem entry2_o : V7 (F := Ideal) m ρ c main_v46 = stage2 m c :=
  (stats_keep_o (W4 m ρ c)).trans (exit1_o m ρ c)
private theorem entry2_mean : V7 (F := Ideal) m ρ c main_v56 = KStage.asRow (KStage.meanOf (stage2 m c)) :=
  (stats_mean (W4 m ρ c)).trans (congrArg (fun o => KStage.asRow (KStage.meanOf o)) (exit1_o m ρ c))
private theorem entry2_scale : V7 (F := Ideal) m ρ c main_v57 = KStage.asRow (KStage.scaleOf (stage2 m c)) :=
  (stats_scale (W4 m ρ c)).trans (congrArg (fun o => KStage.asRow (KStage.scaleOf o)) (exit1_o m ρ c))
private theorem entry2_rowG : V7 (F := Ideal) m ρ c main_v58 = KStage.asRow (arg m c main_arg13) :=
  (stats_rowG (W4 m ρ c)).trans (congrArg KStage.asRow (exit1_g m ρ c))
private theorem entry2_rowBe : V7 (F := Ideal) m ρ c main_v59 = KStage.asRow (arg m c main_arg14) :=
  (stats_rowBe (W4 m ρ c)).trans (congrArg KStage.asRow (exit1_be m ρ c))

end Run

/-- The result buffer's contents at the last boundary are `KStage.out` of the launch contents of the arguments. -/
theorem W8_out (m : (ℓ : Loc nD τ sig) → Buf (Elt Ideal) ℓ) (ρ : Dev nD → PrngReg) (c : Dev nD) :
    W8 (F := Ideal) m ρ c (Proc.devRef .tc main_v60) = KStage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  -- the third stage's output array holds the normalised, rectified rows of what the stage found
  rw [show W8 (F := Ideal) m ρ c (Proc.devRef .tc main_v60) = (dat2 (V7 m ρ) c).arrAt 5 cfg2.N from W8_arr m ρ c 5,
    RegionVal.final2_5, entry2_o, entry2_mean, entry2_scale, entry2_rowG, entry2_rowBe]
  rfl

end Cert.KernelIdeal.KValue

end
-- ==== Proof.RStages.lean ====
/-
  The reference program's result as a composition of its own array operations, stage by stage, over the extended
  reals: the five affine maps (four of the node rows, one of the edge attributes), the edge gate
  σ(B x[src] + C x[dst] + E e) and message A x[src] · gate, the sum of the messages into their target nodes, the gated
  residual, the column means and variances, and the normalised, rectified output.
-/
import proofs.«423304_j31404800868644_3_alg».proof.ReferenceIdeal
import proofs.«423304_j31404800868644_3_alg».proof.Proof.Gen.ReferenceIdeal
import Idealize.ShloMosaic.PureOps.Ideal

noncomputable section

namespace Cert.ReferenceIdeal.RStage

open Cert.ReferenceIdeal Cert.ReferenceIdeal.Facts₀ Cert.ReferenceIdeal.Facts Idealize.ShloMosaic

/-- An array of extended reals of shape `s`. -/
abbrev TF (s : Shape) : Type := FVec Ideal s .f32
/-- An array of 32-bit integers of shape `s`. -/
abbrev TI (s : Shape) : Type := IVec s 32

/-- Row k of the 2 × E edge list as a vector of E node indices: k = 0 the sources. -/
def sources (ei : TI S2x600000) : TI S600000 :=
  fun i => shapeCast S600000 (extractStridedSlice S1x600000 ![0, 0] ei slices_S2x600000_S1x600000_0_0) shapeCasts_S1x600000_S600000 i
/-- k = 1 the targets. -/
def targets (ei : TI S2x600000) : TI S600000 :=
  fun i => shapeCast S600000 (extractStridedSlice S1x600000 ![1, 0] ei slices_S2x600000_S1x600000_1_0) shapeCasts_S1x600000_S600000 i

/-- A negative index counts from the end: v + 100000 where v < 0; then laid out as a column of start indices. -/
def wrap (v : TI S600000) : TI S600000x1 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- A vector of 128 as a row repeated down the node rows. -/
def downRows (b : TF S128) : TF S100000x128 :=
  broadcastInDim S100000x128 ![0, 1] bcast_S1x128_S100000x128_0_1 (broadcastInDim S1x128 ![1] bcast_S128_S1x128_1 b)

/-- x · wᵀ + b over the node rows. -/
def affine (x : TF S100000x128) (w : TF S128x128) (b : TF S128) : TF S100000x128 :=
  addf (Host.dotGeneral dot_S100000x128_S128x128_S100000x128_1_0_0_1_n_n none x
      (transpose S128x128 [1, 0] w transposes_S128x128_S128x128_1_0)) (downRows b)

/-- e · wᵀ + b over the edge rows. -/
def edgeAffine (ea : TF S600000x16) (w : TF S128x16) (b : TF S128) : TF S600000x128 :=
  addf (Host.dotGeneral dot_S600000x16_S16x128_S600000x128_1_0_0_1_n_n none ea
      (transpose S16x128 [1, 0] w transposes_S128x16_S16x128_1_0))
    (broadcastInDim S600000x128 ![0, 1] bcast_S1x128_S600000x128_0_1 (broadcastInDim S1x128 ![1] bcast_S128_S1x128_1 b))

/-- The logistic function 1 / (1 + e^(-z)) as the program spells it, over the edge rows. -/
def sigmE (z : TF S600000x128) : TF S600000x128 :=
  Host.divf (broadcastInDim S600000x128 ![] bcast_S_S600000x128 (constant S_ .f32 0x3F800000#32))
    (addf (broadcastInDim S600000x128 ![] bcast_S_S600000x128 (constant S_ .f32 0x3F800000#32)) (Host.exp (Host.negf z)))
/-- The same over the node rows. -/
def sigmN (z : TF S100000x128) : TF S100000x128 :=
  Host.divf (broadcastInDim S100000x128 ![] bcast_S_S100000x128 (constant S_ .f32 0x3F800000#32))
    (addf (broadcastInDim S100000x128 ![] bcast_S_S100000x128 (constant S_ .f32 0x3F800000#32)) (Host.exp (Host.negf z)))

/-- The rows of a node table at a column of (clamped) start indices. -/
def rowsAt (tbl : TF S100000x128) (ix : TI S600000x1) : TF S600000x128 :=
  Host.gather gather_S100000x128_S600000x1_S600000x128_1_0_n_n_0_1_1128 tbl ix

/-- The messages A x[src] · σ(B x[src] + C x[dst] + E e), summed into their target nodes. -/
def aggregate (Ax Bx Cx : TF S100000x128) (Ex : TF S600000x128) (ei : TI S2x600000) : TF S100000x128 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 (targets ei))
    (mulf (rowsAt Ax (wrap (sources ei)))
      (sigmE (addf (addf (rowsAt Bx (wrap (sources ei))) (rowsAt Cx (wrap (targets ei)))) Ex)))

/-- The column means: the column sums over 100000. -/
def meanOf (o : TF S100000x128) : TF S128 :=
  Host.divf (Host.reduceAdd o (constant S_ .f32 0x00000000#32) reducesTo_S100000x128_S128_d0 h_S_)
    (broadcastInDim S128 ![] bcast_S_S128 (constant S_ .f32 0x47C35000#32))

/-- The divisor of the variance: 100000 minus the (zero) correction. -/
def count : TF S_ :=
  subf (constant S_ .f32 0x47C35000#32) (sitofp .f32 (constantI S_ 32 0#32))

/-- The rows minus their column means. -/
def centred (o : TF S100000x128) : TF S100000x128 :=
  subf o (broadcastInDim S100000x128 ![0, 1] bcast_S1x128_S100000x128_0_1
    (Host.divf (broadcastInDim S1x128 ![1] bcast_S128_S1x128_1
        (Host.reduceAdd o (constant S_ .f32 0x00000000#32) reducesTo_S100000x128_S128_d0 h_S_))
      (broadcastInDim S1x128 ![] bcast_S_S1x128 (constant S_ .f32 0x47C35000#32))))

/-- The column variances: the column sums of the squared centred rows over the count, where the count is positive. -/
def varOf (o : TF S100000x128) : TF S128 :=
  select (broadcastInDim S128 ![] bcast_S_S128 (cmpf .ogt count (constant S_ .f32 0x00000000#32)))
    (Host.divf (Host.reduceAdd (mulf (centred o) (centred o)) (constant S_ .f32 0x00000000#32) reducesTo_S100000x128_S128_d0 h_S_)
      (broadcastInDim S128 ![] bcast_S_S128 count))
    (broadcastInDim S128 ![] bcast_S_S128 (id (constant S_ .f32 0x7FC00000#32)))

/-- γ · (o − mean) · (var + ε)^(-1/2) + β, then the positive part. -/
def normalise (o : TF S100000x128) (g be : TF S128) : TF S100000x128 :=
  maximumf
    (addf (mulf (mulf (downRows g) (subf o (downRows (meanOf o))))
        (downRows (Host.rsqrt (addf (varOf o) (broadcastInDim S128 ![] bcast_S_S128 (constant S_ .f32 0x3727C5AC#32))))))
      (downRows be))
    (broadcastInDim S100000x128 ![] bcast_S_S100000x128 (constant S_ .f32 0x00000000#32))

/-- The gated residual: agg · σ(D x) + x. -/
def residual (agg Dx x : TF S100000x128) : TF S100000x128 := addf (mulf agg (sigmN Dx)) x

/-- The reference program's result as a function of its fifteen arguments. -/
def out (x : TF S100000x128) (ei : TI S2x600000) (ea : TF S600000x16) (Aw : TF S128x128) (Ab : TF S128) (Bw : TF S128x128) (Bb : TF S128)
    (Cw : TF S128x128) (Cb : TF S128) (Dw : TF S128x128) (Db : TF S128) (Ew : TF S128x16) (Eb : TF S128) (g be : TF S128) : TF S100000x128 :=
  normalise (residual (aggregate (affine x Aw Ab) (affine x Bw Bb) (affine x Cw Cb) (edgeAffine ea Ew Eb) ei) (affine x Dw Db) x) g be

end Cert.ReferenceIdeal.RStage

end
-- ==== Proof.RefRun.lean ====
/-
  The reference program's run, read back: it is a straight line of array operations (its three outlined functions
  inlined where they are called), so every weakly fair execution terminates, the arguments end as launched, and the
  result buffer holds the composition `RStage.out` of those operations applied to the argument arrays.
-/
import proofs.«423304_j31404800868644_3_alg».proof.Proof.Gen.ReferenceIdeal
import proofs.«423304_j31404800868644_3_alg».proof.Proof.RStages
import Idealize.ShloMosaic.Lib.StableHlo.Run

-- the declarations are checked one at a time: each holds the line's large terms while it is checked
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-! ## The program as one line of operations

@main's 128 operations in order — its own 103, and in the place of each call the called function's operations over that
call's buffers — cut into five consecutive stretches, one per stage of the computation. -/

/-- The two rows of the edge list as vectors, and the five affine maps: four of the node rows, one of the edge attributes
    (@main's operations 1 … 29). -/
abbrev opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    unary main_arg3 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)),
    unary main_arg5 main_v9 ((transpose S128x128 [1, 0] · transposes_S128x128_S128x128_1_0) : (⟨S128x128, .f32⟩ : BufTy).Contents (Elt F) → (⟨S128x128, .f32⟩ : BufTy).Contents (Elt F)),
    binary main_arg0 main_v9 main_v10 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v11 (broadcastInDim S1x128 ![1] bcast_S128_S1x128_1 : (⟨S128, .f32⟩ : BufTy).Contents (Elt F) → (⟨S1x128, .f32⟩ : BufTy).Contents (Elt F)),
    unary main_v11 main_v12 (broadcastInDim S100000x128 ![0, 1] bcast_S1x128_S100000x128_0_1 : (⟨S1x128, .f32⟩ : BufTy).Contents (Elt F) → (⟨S100000x128, .f32⟩ : BufTy).Contents (Elt F)),
    binary main_v10 main_v12 main_v13 (addf : (⟨S100000x128, .f32⟩ : BufTy).Contents (Elt F) → (⟨S100000x128, .f32⟩ : BufTy).Contents (Elt F) → (⟨S100000x128, .f32⟩ : BufTy).Contents (Elt F)),
    unary main_arg7 main_v14 ((transpose S128x128 [1, 0] · transposes_S128x128_S128x128_1_0) : (⟨S128x128, .f32⟩ : BufTy).Contents (Elt F) → (⟨S128x128, .f32⟩ : BufTy).Contents (Elt F)),
    binary main_arg0 main_v14 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    unary main_arg9 main_v19 ((transpose S128x128 [1, 0] · transposes_S128x128_S128x128_1_0) : (⟨S128x128, .f32⟩ : BufTy).Contents (Elt F) → (⟨S128x128, .f32⟩ : BufTy).Contents (Elt F)),
    binary main_arg0 main_v19 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    unary main_arg11 main_v24 ((transpose S16x128 [1, 0] · transposes_S128x16_S16x128_1_0) : (⟨S128x16, .f32⟩ : BufTy).Contents (Elt F) → (⟨S16x128, .f32⟩ : BufTy).Contents (Elt F)),
    binary main_arg2 main_v24 main_v25 ((fun l r => Host.dotGeneral dot_S600000x16_S16x128_S600000x128_1_0_0_1_n_n none l r) : (⟨S600000x16, .f32⟩ : BufTy).Contents (Elt F) → (⟨S16x128, .f32⟩ : BufTy).Contents (Elt F) → (⟨S600000x128, .f32⟩ : BufTy).Contents (Elt F)),
    unary main_arg12 main_v26 (broadcastInDim S1x128 ![1] bcast_S128_S1x128_1 : (⟨S128, .f32⟩ : BufTy).Contents (Elt F) → (⟨S1x128, .f32⟩ : BufTy).Contents (Elt F)),
    unary main_v26 main_v27 (broadcastInDim S600000x128 ![0, 1] bcast_S1x128_S600000x128_0_1 : (⟨S1x128, .f32⟩ : BufTy).Contents (Elt F) → (⟨S600000x128, .f32⟩ : BufTy).Contents (Elt F)),
    binary main_v25 main_v27 main_v28 (addf : (⟨S600000x128, .f32⟩ : BufTy).Contents (Elt F) → (⟨S600000x128, .f32⟩ : BufTy).Contents (Elt F) → (⟨S600000x128, .f32⟩ : BufTy).Contents (Elt F)) ]

/-- The edge stage (operations 30 … 71): the source and target indices wrapped, the three gathers, the gate, the messages,
    and their sum into the target nodes. -/
abbrev opsB : List (HloOp τ sig (Elt F)) :=
  [ nullary main_c (constantI S_ 32 0#32),
    unary main_c main_v29 (broadcastInDim S600000 ![] bcast_S_S600000 : (⟨S_, .i32⟩ : BufTy).Contents (Elt F) → (⟨S600000, .i32⟩ : BufTy).Contents (Elt F)),
    binary main_v1 main_v29 main_v30 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v31 (broadcastInDim S600000 ![] bcast_S_S600000 : (⟨S_, .i32⟩ : BufTy).Contents (Elt F) → (⟨S600000, .i32⟩ : BufTy).Contents (Elt F)),
    binary main_v1 main_v31 main_v32 (addi : (⟨S600000, .i32⟩ : BufTy).Contents (Elt F) → (⟨S600000, .i32⟩ : BufTy).Contents (Elt F) → (⟨S600000, .i32⟩ : BufTy).Contents (Elt F)),
    ternary main_v30 main_v32 main_v1 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v33 main_v34 (broadcastInDim S600000x1 ![0] bcast_S600000_S600000x1_0 : (⟨S600000, .i32⟩ : BufTy).Contents (Elt F) → (⟨S600000x1, .i32⟩ : BufTy).Contents (Elt F)),
    binary main_v13 main_v34 main_v35 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v36 (broadcastInDim S600000 ![] bcast_S_S600000 : (⟨S_, .i32⟩ : BufTy).Contents (Elt F) → (⟨S600000, .i32⟩ : BufTy).Contents (Elt F)),
    binary main_v3 main_v36 main_v37 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v38 (broadcastInDim S600000 ![] bcast_S_S600000 : (⟨S_, .i32⟩ : BufTy).Contents (Elt F) → (⟨S600000, .i32⟩ : BufTy).Contents (Elt F)),
    binary main_v3 main_v38 main_v39 (addi : (⟨S600000, .i32⟩ : BufTy).Contents (Elt F) → (⟨S600000, .i32⟩ : BufTy).Contents (Elt F) → (⟨S600000, .i32⟩ : BufTy).Contents (Elt F)),
    ternary main_v37 main_v39 main_v3 main_v40 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v40 main_v41 (broadcastInDim S600000x1 ![0] bcast_S600000_S600000x1_0 : (⟨S600000, .i32⟩ : BufTy).Contents (Elt F) → (⟨S600000x1, .i32⟩ : BufTy).Contents (Elt F)),
    binary main_v18 main_v41 main_v42 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v35 main_v42 main_v43 (addf : (⟨S600000x128, .f32⟩ : BufTy).Contents (Elt F) → (⟨S600000x128, .f32⟩ : BufTy).Contents (Elt F) → (⟨S600000x128, .f32⟩ : BufTy).Contents (Elt F)),
    binary main_v43 main_v28 main_v44 (addf : (⟨S600000x128, .f32⟩ : BufTy).Contents (Elt F) → (⟨S600000x128, .f32⟩ : BufTy).Contents (Elt F) → (⟨S600000x128, .f32⟩ : BufTy).Contents (Elt F)),
    unary main_v44 main_v45 (Host.negf : (⟨S600000x128, .f32⟩ : BufTy).Contents (Elt F) → (⟨S600000x128, .f32⟩ : BufTy).Contents (Elt F)),
    unary main_v45 main_v46 (Host.exp : (⟨S600000x128, .f32⟩ : BufTy).Contents (Elt F) → (⟨S600000x128, .f32⟩ : BufTy).Contents (Elt F)),
    nullary main_cst (constant S_ .f32 0x3F800000#32),
    unary main_cst main_v47 (broadcastInDim S600000x128 ![] bcast_S_S600000x128 : (⟨S_, .f32⟩ : BufTy).Contents (Elt F) → (⟨S600000x128, .f32⟩ : BufTy).Contents (Elt F)),
    binary main_v47 main_v46 main_v48 (addf : (⟨S600000x128, .f32⟩ : BufTy).Contents (Elt F) → (⟨S600000x128, .f32⟩ : BufTy).Contents (Elt F) → (⟨S600000x128, .f32⟩ : BufTy).Contents (Elt F)),
    nullary main_cst_3 (constant S_ .f32 0x3F800000#32),
    unary main_cst_3 main_v49 (broadcastInDim S600000x128 ![] bcast_S_S600000x128 : (⟨S_, .f32⟩ : BufTy).Contents (Elt F) → (⟨S600000x128, .f32⟩ : BufTy).Contents (Elt F)),
    binary main_v49 main_v48 main_v50 (Host.divf : (⟨S600000x128, .f32⟩ : BufTy).Contents (Elt F) → (⟨S600000x128, .f32⟩ : BufTy).Contents (Elt F) → (⟨S600000x128, .f32⟩ : BufTy).Contents (Elt F)),
    nullary main_c_4 (constantI S_ 32 0#32),
    unary main_c_4 main_v51 (broadcastInDim S600000 ![] bcast_S_S600000 : (⟨S_, .i32⟩ : BufTy).Contents (Elt F) → (⟨S600000, .i32⟩ : BufTy).Contents (Elt F)),
    binary main_v1 main_v51 main_v52 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v53 (broadcastInDim S600000 ![] bcast_S_S600000 : (⟨S_, .i32⟩ : BufTy).Contents (Elt F) → (⟨S600000, .i32⟩ : BufTy).Contents (Elt F)),
    binary main_v1 main_v53 main_v54 (addi : (⟨S600000, .i32⟩ : BufTy).Contents (Elt F) → (⟨S600000, .i32⟩ : BufTy).Contents (Elt F) → (⟨S600000, .i32⟩ : BufTy).Contents (Elt F)),
    ternary main_v52 main_v54 main_v1 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v55 main_v56 (broadcastInDim S600000x1 ![0] bcast_S600000_S600000x1_0 : (⟨S600000, .i32⟩ : BufTy).Contents (Elt F) → (⟨S600000x1, .i32⟩ : BufTy).Contents (Elt F)),
    binary main_v8 main_v56 main_v57 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v57 main_v50 main_v58 (mulf : (⟨S600000x128, .f32⟩ : BufTy).Contents (Elt F) → (⟨S600000x128, .f32⟩ : BufTy).Contents (Elt F) → (⟨S600000x128, .f32⟩ : BufTy).Contents (Elt F)),
    nullary main_cst_6 (constant S_ .f32 0x00000000#32),
    unary main_cst_6 main_v59 (broadcastInDim S100000x128 ![] bcast_S_S100000x128 : (⟨S_, .f32⟩ : BufTy).Contents (Elt F) → (⟨S100000x128, .f32⟩ : BufTy).Contents (Elt F)),
    unary main_v3 main_v60 (broadcastInDim S600000x1 ![0] bcast_S600000_S600000x1_0 : (⟨S600000, .i32⟩ : BufTy).Contents (Elt F) → (⟨S600000x1, .i32⟩ : BufTy).Contents (Elt F)),
    ternary main_v59 main_v60 main_v58 main_v61 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The gated residual (operations 72 … 81). -/
abbrev opsC : List (HloOp τ sig (Elt F)) :=
  [ unary main_v23 main_v62 (Host.negf : (⟨S100000x128, .f32⟩ : BufTy).Contents (Elt F) → (⟨S100000x128, .f32⟩ : BufTy).Contents (Elt F)),
    unary main_v62 main_v63 (Host.exp : (⟨S100000x128, .f32⟩ : BufTy).Contents (Elt F) → (⟨S100000x128, .f32⟩ : BufTy).Contents (Elt F)),
    nullary main_cst_7 (constant S_ .f32 0x3F800000#32),
    unary main_cst_7 main_v64 (broadcastInDim S100000x128 ![] bcast_S_S100000x128 : (⟨S_, .f32⟩ : BufTy).Contents (Elt F) → (⟨S100000x128, .f32⟩ : BufTy).Contents (Elt F)),
    binary main_v64 main_v63 main_v65 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3F800000#32),
    unary main_cst_8 main_v66 (broadcastInDim S100000x128 ![] bcast_S_S100000x128 : (⟨S_, .f32⟩ : BufTy).Contents (Elt F) → (⟨S100000x128, .f32⟩ : BufTy).Contents (Elt F)),
    binary main_v66 main_v65 main_v67 (Host.divf : (⟨S100000x128, .f32⟩ : BufTy).Contents (Elt F) → (⟨S100000x128, .f32⟩ : BufTy).Contents (Elt F) → (⟨S100000x128, .f32⟩ : BufTy).Contents (Elt F)),
    binary main_v61 main_v67 main_v68 (mulf : (⟨S100000x128, .f32⟩ : BufTy).Contents (Elt F) → (⟨S100000x128, .f32⟩ : BufTy).Contents (Elt F) → (⟨S100000x128, .f32⟩ : BufTy).Contents (Elt F)),
    binary main_v68 main_arg0 main_v69 (addf : (⟨S100000x128, .f32⟩ : BufTy).Contents (Elt F) → (⟨S100000x128, .f32⟩ : BufTy).Contents (Elt F) → (⟨S100000x128, .f32⟩ : BufTy).Contents (Elt F)) ]

/-- The column statistics (operations 82 … 87 and the call that computes %73): the means, then the called variance's
    nineteen operations with the three of the selection it calls in turn, each over that call's buffers. -/
abbrev opsD : List (HloOp τ sig (Elt F)) :=
  [ nullary main_cst_9 (constant S_ .f32 0x00000000#32),
    binary main_v69 main_cst_9 main_v70 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v71 (broadcastInDim S128 ![] bcast_S_S128 : (⟨S_, .f32⟩ : BufTy).Contents (Elt F) → (⟨S128, .f32⟩ : BufTy).Contents (Elt F)),
    binary main_v70 main_v71 main_v72 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary (.of main_call0_cst : TRef sig ⟨S_, .f32⟩) (constant S_ .f32 0x00000000#32),
    TRef.binary (.of main_v69 : TRef sig ⟨S100000x128, .f32⟩) (.of main_call0_cst : TRef sig ⟨S_, .f32⟩) (.of main_call0_v0 : TRef sig ⟨S128, .f32⟩) (fun x v => Host.reduceAdd x v reducesTo_S100000x128_S128_d0 h_S_),
    TRef.unary (.of main_call0_v0 : TRef sig ⟨S128, .f32⟩) (.of main_call0_v1 : TRef sig ⟨S1x128, .f32⟩) (broadcastInDim S1x128 ![1] bcast_S128_S1x128_1),
    TRef.nullary (.of main_call0_cst_0 : TRef sig ⟨S_, .f32⟩) (constant S_ .f32 0x47C35000#32),
    TRef.unary (.of main_call0_cst_0 : TRef sig ⟨S_, .f32⟩) (.of main_call0_v2 : TRef sig ⟨S1x128, .f32⟩) (broadcastInDim S1x128 ![] bcast_S_S1x128),
    TRef.binary (.of main_call0_v1 : TRef sig ⟨S1x128, .f32⟩) (.of main_call0_v2 : TRef sig ⟨S1x128, .f32⟩) (.of main_call0_v3 : TRef sig ⟨S1x128, .f32⟩) Host.divf,
    TRef.unary (.of main_call0_v3 : TRef sig ⟨S1x128, .f32⟩) (.of main_call0_v4 : TRef sig ⟨S100000x128, .f32⟩) (broadcastInDim S100000x128 ![0, 1] bcast_S1x128_S100000x128_0_1),
    TRef.binary (.of main_v69 : TRef sig ⟨S100000x128, .f32⟩) (.of main_call0_v4 : TRef sig ⟨S100000x128, .f32⟩) (.of main_call0_v5 : TRef sig ⟨S100000x128, .f32⟩) subf,
    TRef.binary (.of main_call0_v5 : TRef sig ⟨S100000x128, .f32⟩) (.of main_call0_v5 : TRef sig ⟨S100000x128, .f32⟩) (.of main_call0_v6 : TRef sig ⟨S100000x128, .f32⟩) mulf,
    TRef.unary (.of main_c_11 : TRef sig ⟨S_, .i32⟩) (.of main_call0_v7 : TRef sig ⟨S_, .f32⟩) (sitofp .f32),
    TRef.nullary (.of main_call0_cst_1 : TRef sig ⟨S_, .f32⟩) (constant S_ .f32 0x47C35000#32),
    TRef.binary (.of main_call0_cst_1 : TRef sig ⟨S_, .f32⟩) (.of main_call0_v7 : TRef sig ⟨S_, .f32⟩) (.of main_call0_v8 : TRef sig ⟨S_, .f32⟩) subf,
    TRef.nullary (.of main_call0_cst_2 : TRef sig ⟨S_, .f32⟩) (constant S_ .f32 0x00000000#32),
    TRef.binary (.of main_call0_v6 : TRef sig ⟨S100000x128, .f32⟩) (.of main_call0_cst_2 : TRef sig ⟨S_, .f32⟩) (.of main_call0_v9 : TRef sig ⟨S128, .f32⟩) (fun x v => Host.reduceAdd x v reducesTo_S100000x128_S128_d0 h_S_),
    TRef.unary (.of main_call0_v8 : TRef sig ⟨S_, .f32⟩) (.of main_call0_v10 : TRef sig ⟨S128, .f32⟩) (broadcastInDim S128 ![] bcast_S_S128),
    TRef.binary (.of main_call0_v9 : TRef sig ⟨S128, .f32⟩) (.of main_call0_v10 : TRef sig ⟨S128, .f32⟩) (.of main_call0_v11 : TRef sig ⟨S128, .f32⟩) Host.divf,
    TRef.nullary (.of main_call0_cst_3 : TRef sig ⟨S_, .f32⟩) (constant S_ .f32 0x00000000#32),
    TRef.binary (.of main_call0_v8 : TRef sig ⟨S_, .f32⟩) (.of main_call0_cst_3 : TRef sig ⟨S_, .f32⟩) (.of main_call0_v12 : TRef sig ⟨S_, .i1⟩) (cmpf .ogt),
    TRef.nullary (.of main_call0_cst_4 : TRef sig ⟨S_, .f32⟩) (constant S_ .f32 0x7FC00000#32),
    TRef.unary (.of main_call0_cst_4 : TRef sig ⟨S_, .f32⟩) (.of main_call0_call0_v0 : TRef sig ⟨S_, .f32⟩) id,
    TRef.unary (.of main_call0_call0_v0 : TRef sig ⟨S_, .f32⟩) (.of main_call0_call0_v1 : TRef sig ⟨S128, .f32⟩) (broadcastInDim S128 ![] bcast_S_S128),
    TRef.ternary (.of main_call0_v12 : TRef sig ⟨S_, .i1⟩) (.of main_call0_v11 : TRef sig ⟨S128, .f32⟩) (.of main_call0_call0_v1 : TRef sig ⟨S128, .f32⟩) (.of main_v73 : TRef sig ⟨S128, .f32⟩) (fun p a b => select (broadcastInDim S128 ![] bcast_S_S128 p) a b) ]

/-- The normalisation (operations 88 … 103) and the called positive part's three operations, where %89 is computed. -/
abbrev opsE : List (HloOp τ sig (Elt F)) :=
  [ unary main_v72 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v69 main_v75 main_v76 (subf : (⟨S100000x128, .f32⟩ : BufTy).Contents (Elt F) → (⟨S100000x128, .f32⟩ : BufTy).Contents (Elt F) → (⟨S100000x128, .f32⟩ : BufTy).Contents (Elt F)),
    unary main_arg13 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v78 main_v76 main_v79 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v80 (broadcastInDim S128 ![] bcast_S_S128 : (⟨S_, .f32⟩ : BufTy).Contents (Elt F) → (⟨S128, .f32⟩ : BufTy).Contents (Elt F)),
    binary main_v73 main_v80 main_v81 (addf : (⟨S128, .f32⟩ : BufTy).Contents (Elt F) → (⟨S128, .f32⟩ : BufTy).Contents (Elt F) → (⟨S128, .f32⟩ : BufTy).Contents (Elt F)),
    unary main_v81 main_v82 (Host.rsqrt : (⟨S128, .f32⟩ : BufTy).Contents (Elt F) → (⟨S128, .f32⟩ : BufTy).Contents (Elt F)),
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v79 main_v84 main_v85 (mulf : (⟨S100000x128, .f32⟩ : BufTy).Contents (Elt F) → (⟨S100000x128, .f32⟩ : BufTy).Contents (Elt F) → (⟨S100000x128, .f32⟩ : BufTy).Contents (Elt F)),
    unary main_arg14 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v85 main_v87 main_v88 (addf : (⟨S100000x128, .f32⟩ : BufTy).Contents (Elt F) → (⟨S100000x128, .f32⟩ : BufTy).Contents (Elt F) → (⟨S100000x128, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S100000x128, .f32⟩) (broadcastInDim S100000x128 ![] bcast_S_S100000x128),
    TRef.binary (.of main_v88 : TRef sig ⟨S100000x128, .f32⟩) (.of main_call1_v0 : TRef sig ⟨S100000x128, .f32⟩) (.of main_v89 : TRef sig ⟨S100000x128, .f32⟩) maximumf ]

/-- The whole line: the five stretches one after the other. -/
abbrev ops : List (HloOp τ sig (Elt F)) := opsA ++ (opsB ++ (opsC ++ (opsD ++ opsE)))

/-- @main is that line: the two windows, the called functions at their calls and the call records at their fields
    unfolded, the stretches joined into one list, both sides are one chain of steps once sequencing is re-associated. -/
theorem main_eq (c : Dev nD) : main (F := F) c = seq ops := by
  simp only [main, main_part0, main_part1, fn_var.body, fn_where.body, fn_relu.body, ops, opsA, opsB, opsC, opsD, opsE,
    List.cons_append, List.nil_append, seq, bind_assoc, pure_bind]

/-- The signature scopes no buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
private theorem forall_append {α : Type} {p : α → Prop} {l₁ l₂ : List α} (h₁ : l₁.Forall p) (h₂ : l₂.Forall p) :
    (l₁ ++ l₂).Forall p :=
  List.forall_iff_forall_mem.mpr fun a h =>
    (List.mem_append.mp h).elim (List.forall_iff_forall_mem.mp h₁ a) (List.forall_iff_forall_mem.mp h₂ a)

theorem opsA_sub : (opsA : List (HloOp τ sig (Elt F))).Forall fun op => op.bufs ⊆ tcRefs τ sig :=
  ⟨unary_bufs_sub .., reshape_bufs_sub .., unary_bufs_sub .., reshape_bufs_sub .., unary_bufs_sub .., binary_bufs_sub ..,
    unary_bufs_sub .., unary_bufs_sub .., binary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., binary_bufs_sub .., unary_bufs_sub .., unary_bufs_sub .., binary_bufs_sub ..⟩
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub .., binary_bufs_sub .., binary_bufs_sub ..⟩
theorem opsD_sub : (opsD : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
theorem opsE_sub : (opsE : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub ..⟩

/-- Every operation touches TensorCore references only. -/
theorem ops_sub : (ops : List (HloOp τ sig (Elt F))).Forall fun op => op.bufs ⊆ tcRefs τ sig :=
  forall_append opsA_sub (forall_append opsB_sub (forall_append opsC_sub (forall_append opsD_sub opsE_sub)))

/-- A line run in two parts: the second part starts from the contents the first part ends at. -/
private theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Line

/-! ## The stages, read back

Each stretch run from ANY contents `Z`: the buffers later stretches read end at the stage's function of what the
stretch read, and the buffers it does not write stay. Every equation is between short terms with the arrays as variables:
the line's fold computes (each operation's result at its own buffer, the rest untouched), and the stage function is the
same composition by definition. -/

section Stages

/-- The contents of reference `r`'s buffer. -/
local notation:max Z "⟪" r "⟫" => Z (Proc.devRef Proc.tc r)

variable (Z : Valuation τ sig (Elt Ideal))

/-! ### The edge rows and the five affine maps -/

theorem edge_sources : after opsA Z (Proc.devRef .tc main_v1) = RStage.sources Z⟪main_arg1⟫ := by
  after_results_simp; rfl
theorem edge_targets : after opsA Z (Proc.devRef .tc main_v3) = RStage.targets Z⟪main_arg1⟫ := by
  after_results_simp; rfl
theorem map_A : after opsA Z (Proc.devRef .tc main_v8) = RStage.affine Z⟪main_arg0⟫ Z⟪main_arg3⟫ Z⟪main_arg4⟫ := by
  after_results_simp; rfl
theorem map_B : after opsA Z (Proc.devRef .tc main_v13) = RStage.affine Z⟪main_arg0⟫ Z⟪main_arg5⟫ Z⟪main_arg6⟫ := by
  after_results_simp; rfl
theorem map_C : after opsA Z (Proc.devRef .tc main_v18) = RStage.affine Z⟪main_arg0⟫ Z⟪main_arg7⟫ Z⟪main_arg8⟫ := by
  after_results_simp; rfl
theorem map_D : after opsA Z (Proc.devRef .tc main_v23) = RStage.affine Z⟪main_arg0⟫ Z⟪main_arg9⟫ Z⟪main_arg10⟫ := by
  after_results_simp; rfl
theorem map_E : after opsA Z (Proc.devRef .tc main_v28) = RStage.edgeAffine Z⟪main_arg2⟫ Z⟪main_arg11⟫ Z⟪main_arg12⟫ := by
  after_results_simp; rfl
/-- The node features, the scale and the shift are read again later: the maps leave them. -/
theorem maps_keep : after opsA Z (Proc.devRef .tc main_arg0) = Z⟪main_arg0⟫
    ∧ after opsA Z (Proc.devRef .tc main_arg13) = Z⟪main_arg13⟫ ∧ after opsA Z (Proc.devRef .tc main_arg14) = Z⟪main_arg14⟫ :=
  ⟨by after_results_simp, by after_results_simp, by after_results_simp⟩

/-! ### The edge stage -/

/-- The messages summed into their target nodes, from the four maps' results and the two edge rows. -/
theorem messages_sum (ei : RStage.TI S2x600000) (hs : Z⟪main_v1⟫ = RStage.sources ei) (ht : Z⟪main_v3⟫ = RStage.targets ei) :
    after opsB Z (Proc.devRef .tc main_v61) = RStage.aggregate Z⟪main_v8⟫ Z⟪main_v13⟫ Z⟪main_v18⟫ Z⟪main_v28⟫ ei := by
  after_results_simp
  rw [hs, ht]
  rfl
/-- The fourth node map, the node features, the scale and the shift are read later: the edge stage leaves them. -/
theorem messages_keep : after opsB Z (Proc.devRef .tc main_v23) = Z⟪main_v23⟫ ∧ after opsB Z (Proc.devRef .tc main_arg0) = Z⟪main_arg0⟫
    ∧ after opsB Z (Proc.devRef .tc main_arg13) = Z⟪main_arg13⟫ ∧ after opsB Z (Proc.devRef .tc main_arg14) = Z⟪main_arg14⟫ :=
  ⟨by after_results_simp, by after_results_simp, by after_results_simp, by after_results_simp⟩

/-! ### The gated residual -/

theorem gated_residual : after opsC Z (Proc.devRef .tc main_v69) = RStage.residual Z⟪main_v61⟫ Z⟪main_v23⟫ Z⟪main_arg0⟫ := by
  after_results_simp; rfl
theorem residual_keep : after opsC Z (Proc.devRef .tc main_arg13) = Z⟪main_arg13⟫ ∧ after opsC Z (Proc.devRef .tc main_arg14) = Z⟪main_arg14⟫ :=
  ⟨by after_results_simp, by after_results_simp⟩

/-! ### The column statistics

The called functions' operations move each value between its own type and its buffer's: at these buffers the two are
one type and the move is the identity, by computation. -/

theorem column_means : after opsD Z (Proc.devRef .tc main_v72) = RStage.meanOf Z⟪main_v69⟫ := by
  after_results_simp; rfl
theorem column_variances : after opsD Z (Proc.devRef .tc main_v73) = RStage.varOf Z⟪main_v69⟫ := by
  after_results_simp; rfl
theorem statistics_keep : after opsD Z (Proc.devRef .tc main_v69) = Z⟪main_v69⟫
    ∧ after opsD Z (Proc.devRef .tc main_arg13) = Z⟪main_arg13⟫ ∧ after opsD Z (Proc.devRef .tc main_arg14) = Z⟪main_arg14⟫ :=
  ⟨by after_results_simp, by after_results_simp, by after_results_simp⟩

/-! ### The normalisation and the positive part -/

theorem normalised (o : RStage.TF S100000x128) (ho : Z⟪main_v69⟫ = o) (hm : Z⟪main_v72⟫ = RStage.meanOf o) (hv : Z⟪main_v73⟫ = RStage.varOf o) :
    after opsE Z (Proc.devRef .tc main_v89) = RStage.normalise o Z⟪main_arg13⟫ Z⟪main_arg14⟫ := by
  after_results_simp
  rw [ho, hm, hv]
  rfl

/-! ## The whole line -/

/-- The result buffer after the whole line: the stages composed, each stretch starting from the contents the one before
    it ends at. -/
theorem out_eq (V : Valuation τ sig (Elt Ideal)) :
    after ops V (Proc.devRef .tc main_v89)
      = RStage.out V⟪main_arg0⟫ V⟪main_arg1⟫ V⟪main_arg2⟫ V⟪main_arg3⟫ V⟪main_arg4⟫ V⟪main_arg5⟫ V⟪main_arg6⟫ V⟪main_arg7⟫ V⟪main_arg8⟫ V⟪main_arg9⟫ V⟪main_arg10⟫ V⟪main_arg11⟫ V⟪main_arg12⟫ V⟪main_arg13⟫ V⟪main_arg14⟫ := by
  simp only [ops, after_append]
  -- the maps
  have a1 := edge_sources V; have a3 := edge_targets V
  have a8 := map_A V; have a13 := map_B V; have a18 := map_C V; have a23 := map_D V; have a28 := map_E V
  obtain ⟨ax, ag, ab⟩ := maps_keep V
  generalize after opsA V = ZA at *
  -- the edge stage
  have b61 := messages_sum ZA _ a1 a3
  obtain ⟨b23, bx, bg, bb⟩ := messages_keep ZA
  generalize after opsB ZA = ZB at *
  -- the residual
  have c69 := gated_residual ZB
  obtain ⟨cg, cb⟩ := residual_keep ZB
  generalize after opsC ZB = ZC at *
  -- the statistics
  have d72 := column_means ZC; have d73 := column_variances ZC
  obtain ⟨d69, dg, db⟩ := statistics_keep ZC
  generalize after opsD ZC = ZD at *
  -- the normalisation, then every stage's operands traced back to the arguments
  rw [normalised ZD _ rfl (by rw [d72, d69]) (by rw [d73, d69])]
  rw [d69, c69, b61, b23, bx, a8, a13, a18, a28, a23, ax, dg, cg, bg, ag, db, cb, bb, ab]
  rfl

-- fifteen references traced through a hundred and twenty-eight operations, one inequality of references at each
set_option maxHeartbeats 4000000 in
/-- No operation writes an argument: each ends as launched. -/
theorem args_keep (V : Valuation τ sig (Elt Ideal)) :
    after ops V (Proc.devRef .tc main_arg0) = V⟪main_arg0⟫
    ∧ after ops V (Proc.devRef .tc main_arg1) = V⟪main_arg1⟫
    ∧ after ops V (Proc.devRef .tc main_arg2) = V⟪main_arg2⟫
    ∧ after ops V (Proc.devRef .tc main_arg3) = V⟪main_arg3⟫
    ∧ after ops V (Proc.devRef .tc main_arg4) = V⟪main_arg4⟫
    ∧ after ops V (Proc.devRef .tc main_arg5) = V⟪main_arg5⟫
    ∧ after ops V (Proc.devRef .tc main_arg6) = V⟪main_arg6⟫
    ∧ after ops V (Proc.devRef .tc main_arg7) = V⟪main_arg7⟫
    ∧ after ops V (Proc.devRef .tc main_arg8) = V⟪main_arg8⟫
    ∧ after ops V (Proc.devRef .tc main_arg9) = V⟪main_arg9⟫
    ∧ after ops V (Proc.devRef .tc main_arg10) = V⟪main_arg10⟫
    ∧ after ops V (Proc.devRef .tc main_arg11) = V⟪main_arg11⟫
    ∧ after ops V (Proc.devRef .tc main_arg12) = V⟪main_arg12⟫
    ∧ after ops V (Proc.devRef .tc main_arg13) = V⟪main_arg13⟫
    ∧ after ops V (Proc.devRef .tc main_arg14) = V⟪main_arg14⟫ := by
  simp only [ops, after_append]
  after_results_simp
  simp only [and_self]

end Stages

/-- The run: the result at `RStage.out` of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89) = RStage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun _ h c => ?_)
    (run_seq scopedRefs_eq scopedSems_eq defs main (fun _ => ops) main_eq (fun _ => ops_sub) m ρ)
  obtain ⟨k0, k1, k2, k3, k4, k5, k6, k7, k8, k9, k10, k11, k12, k13, k14⟩ := args_keep (launchContents m c)
  exact ⟨(h c main_v89).trans (out_eq _), (h c main_arg0).trans k0, (h c main_arg1).trans k1, (h c main_arg2).trans k2, (h c main_arg3).trans k3, (h c main_arg4).trans k4, (h c main_arg5).trans k5, (h c main_arg6).trans k6, (h c main_arg7).trans k7, (h c main_arg8).trans k8, (h c main_arg9).trans k9, (h c main_arg10).trans k10, (h c main_arg11).trans k11, (h c main_arg12).trans k12, (h c main_arg13).trans k13, (h c main_arg14).trans k14⟩

end Cert.ReferenceIdeal.RefRun

end
-- ==== Proof.Consts.lean ====
/-
  The float words the two programs spell whose values the proof uses, as the extended reals they denote:
  1.0 (the logistic function's numerator and summand) and 100000.0 (the number of rows).
-/
import Idealize.ShloMosaic.PureOps.Ideal

noncomputable section

namespace Cert.Consts

open Idealize.ShloMosaic

/-- The word of 1.0 denotes 1. -/
theorem ofBits_one : Ideal.ofBits .f32 0x3F800000#32 = 1 := by
  simp [Ideal.ofBits, Ideal.ieee, -EReal.coe_mul]; norm_num

/-- The word of 100000.0 denotes the real 100000. -/
theorem ofBits_rows : Ideal.ofBits .f32 0x47C35000#32 = ((100000 : ℝ) : EReal) := by
  simp [Ideal.ofBits, Ideal.ieee, -EReal.coe_mul]; norm_num

end Cert.Consts

end
-- ==== Proof.BridgeAffine.lean ====
/-
  The affine map of the node rows, entry by entry: the reference's contraction of x with the transposed weight plus
  the bias repeated down the rows is `Spec.proj` of x, the transposed weight and the bias as a row; and the gated
  residual spelt with the one-operation logistic function is the reference's, whose gate is spelt 1 / (1 + e^(-z)).
-/
import proofs.«423304_j31404800868644_3_alg».proof.Proof.KStages
import proofs.«423304_j31404800868644_3_alg».proof.Proof.RStages
import proofs.«423304_j31404800868644_3_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Bridge

open Idealize.ShloMosaic Idealize.ShloMosaic.ValueIdx
open scoped BigOperators

/-! ## The contraction's operand indices, axis by axis

The reference contracts axis 1 of the rows with axis 0 of the weight: at result entry (r, j) and contraction position k
the left operand is read at (r, k) and the right one at (k, j). -/

/-- The left operand's row is the result's row. -/
private theorem lhs_axis0 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx j k 0).val = (j 0).val := by
  simp [DotDims.lhsIdx, Cert.ReferenceIdeal.dot_S100000x128_S128x128_S100000x128_1_0_0_1_n_n]
  rfl

/-- The left operand's column is the contraction position. -/
private theorem lhs_axis1 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx j k 1).val = (k ⟨0, by decide⟩).val :=
  DotDims.lhsIdx_val_of_single _ rfl j k

/-- The right operand's row is the contraction position. -/
private theorem rhs_axis0 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx j k 0).val = (k ⟨0, by decide⟩).val :=
  DotDims.rhsIdx_val_of_single _ rfl j k

/-- The right operand's column is the result's column. -/
private theorem rhs_axis1 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx j k 1).val = (j 1).val := by
  simp [DotDims.rhsIdx, Cert.ReferenceIdeal.dot_S100000x128_S128x128_S100000x128_1_0_0_1_n_n]
  rfl

/-- The reference's contraction at entry (r, j): the sum over k of x[r, k] · wt[k, j]. -/
private theorem contraction_apply (x : FVec Ideal Cert.ReferenceIdeal.S100000x128 .f32)
    (wt : FVec Ideal Cert.ReferenceIdeal.S128x128 .f32) (p : Fin 100000) (q : Fin 128) :
    Host.dotGeneral (F := Ideal) Cert.ReferenceIdeal.dot_S100000x128_S128x128_S100000x128_1_0_0_1_n_n none x wt (ix2 p q) = ∑ k : Fin 128, x (ix2 p k) * wt (ix2 k q) := by
  show FloatOps.dotGeneral _ none _ x wt (ix2 p q) = _
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have hl : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := by
    funext a; apply Fin.ext
    match a with
    | ⟨0, _⟩ => exact lhs_axis0 _ _
    | ⟨1, _⟩ => exact (lhs_axis1 _ _).trans hk
  have hr : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := by
    funext a; apply Fin.ext
    match a with
    | ⟨0, _⟩ => exact (rhs_axis0 _ _).trans hk
    | ⟨1, _⟩ => exact rhs_axis1 _ _
  rw [hl, hr]

/-! ## The bias at an entry -/

/-- The bias repeated down the rows, at entry (r, j), is b[j]. -/
private theorem downRows_apply (b : Cert.ReferenceIdeal.RStage.TF Cert.ReferenceIdeal.S128) (p : Fin 100000) (q : Fin 128) :
    Cert.ReferenceIdeal.RStage.downRows b (ix2 p q) = b (ix1 q) := by
  unfold Cert.ReferenceIdeal.RStage.downRows
  rw [broadcastInDim_apply (![0, 1]) _ _ (ix2 p q) (ix2 (0 : Fin 1) q) (by
    intro a
    match a with
    | ⟨0, _⟩ => rfl
    | ⟨1, _⟩ =>
      show q.val = if (128 : ℕ) = 1 then 0 else q.val
      rw [if_neg (by decide)])]
  rw [broadcastInDim_apply (![1]) _ _ (ix2 (0 : Fin 1) q) (ix1 q) (by
    intro a
    match a with
    | ⟨0, _⟩ =>
      show q.val = if (128 : ℕ) = 1 then 0 else q.val
      rw [if_neg (by decide)])]

/-- The bias as a 1 × 128 row, at (0, j), is b[j]. -/
private theorem asRow_apply (b : Cert.KernelIdeal.KStage.TF Cert.KernelIdeal.S128) (q : Fin 128) :
    Cert.KernelIdeal.KStage.asRow b (ix2 (0 : Fin 1) q) = b (ix1 q) := by
  unfold Cert.KernelIdeal.KStage.asRow
  refine shapeCast_apply b _ (ix2 (0 : Fin 1) q) (ix1 q) ?_
  rw [Shape.rowMajor_val_one, Shape.rowMajor_val_two]
  show q.val = 0 * 128 + q.val
  omega

/-! ## The logistic function as the reference spells it -/

/-- The splat of the word of 1.0 over the node rows reads 1 everywhere. -/
private theorem one_splat_apply (i : Cert.ReferenceIdeal.S100000x128.Idx) :
    broadcastInDim Cert.ReferenceIdeal.S100000x128 ![] Cert.ReferenceIdeal.Facts₀.bcast_S_S100000x128
      (constant (F := Ideal) Cert.ReferenceIdeal.S_ .f32 0x3F800000#32) i = 1 := by
  rw [broadcastInDim_scalar_apply, constant_apply, Cert.Consts.ofBits_one]

/-- The reference's 1 / (1 + e^(-z)) over the node rows is the logistic function entry by entry. -/
private theorem sigmN_apply (z : Cert.ReferenceIdeal.RStage.TF Cert.ReferenceIdeal.S100000x128) (i : Cert.ReferenceIdeal.S100000x128.Idx) :
    Cert.ReferenceIdeal.RStage.sigmN z i = Ideal.logistic (z i) := by
  unfold Cert.ReferenceIdeal.RStage.sigmN
  rw [hostDivf_apply, addf_apply, one_splat_apply]
  rfl

/-! ## The two bridges -/

/-- The reference's affine map is `Spec.proj` at the kernel program's transposed weight and row-vector bias. -/
theorem affine_eq (x : Cert.KernelIdeal.KStage.TF Cert.KernelIdeal.S100000x128) (w : Cert.KernelIdeal.KStage.TF Cert.KernelIdeal.S128x128) (b : Cert.KernelIdeal.KStage.TF Cert.KernelIdeal.S128) :
    Cert.Spec.proj x (Cert.KernelIdeal.KStage.wt w) (Cert.KernelIdeal.KStage.asRow b) = Cert.ReferenceIdeal.RStage.affine x w b := by
  funext i
  obtain ⟨p, q, rfl⟩ : ∃ (p : Fin 100000) (q : Fin 128), i = ix2 p q := ⟨i 0, i 1, eq_ix2 i⟩
  -- both programs transpose the same weight: one array, named by the kernel program's spelling
  show (∑ k : Fin 128, x (ix2 p k) * Cert.KernelIdeal.KStage.wt w (ix2 k q)) + Cert.KernelIdeal.KStage.asRow b (ix2 (0 : Fin 1) q)
    = addf (Host.dotGeneral (F := Ideal) Cert.ReferenceIdeal.dot_S100000x128_S128x128_S100000x128_1_0_0_1_n_n none x (Cert.KernelIdeal.KStage.wt w))
        (Cert.ReferenceIdeal.RStage.downRows b) (ix2 p q)
  rw [addf_apply, contraction_apply, downRows_apply, asRow_apply]

/-- The gated residual of the second stage is the reference's. -/
theorem combine_eq (agg x : Cert.KernelIdeal.KStage.TF Cert.KernelIdeal.S100000x128) (w : Cert.KernelIdeal.KStage.TF Cert.KernelIdeal.S128x128) (b : Cert.KernelIdeal.KStage.TF Cert.KernelIdeal.S128) :
    Cert.Spec.combine agg x (Cert.KernelIdeal.KStage.wt w) (Cert.KernelIdeal.KStage.asRow b) = Cert.ReferenceIdeal.RStage.residual agg (Cert.ReferenceIdeal.RStage.affine x w b) x := by
  funext i
  show agg i * Ideal.logistic (Cert.Spec.proj x (Cert.KernelIdeal.KStage.wt w) (Cert.KernelIdeal.KStage.asRow b) i) + x i
    = addf (mulf agg (Cert.ReferenceIdeal.RStage.sigmN (Cert.ReferenceIdeal.RStage.affine x w b))) x i
  rw [affine_eq, addf_apply, mulf_apply, sigmN_apply]

end Cert.Bridge

end
-- ==== Proof.BridgeGather.lean ====
/-
  Gathering rows of two tables laid side by side and then taking the left (right) 128 columns is gathering the rows of
  the first (second) table: a row gather reads, at (e, j), the table at (clamp(idx[e]), j), with the same clamp
  0 ≤ · ≤ 99999 for a table of 256 columns as for one of 128.
-/
import proofs.«423304_j31404800868644_3_alg».proof.Proof.KStages
import proofs.«423304_j31404800868644_3_alg».proof.Proof.RStages
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx
open scoped BigOperators

/-- A row gather (operand axis 0 collapsed and start-indexed, operand axis 1 read through the result's offset axis 1, the
    index vector on axis 1 of an [M × 1] column of start indices) reads, at (e, j), the table at (r, j), where r is the
    e-th start index read signed and clamped into [0, N − 1]. -/
private theorem rowGather_apply {α : Type} {N C M w : Nat} (hN : 0 < N)
    (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) :
    Host.gather d x idx (ix2 e j)
      = x (ix2 (⟨min (idx (ix2 e (0 : Fin 1))).toInt.toNat (N - 1), by omega⟩ : Fin N) j) := by
  unfold Host.gather
  congr 1
  funext a
  refine Fin.ext ?_
  have hb : ∀ a : Fin 2, a ∉ d.operandBatchingDims := fun a => by rw [hob]; exact List.not_mem_nil
  -- the result's batch axes (the ones that are not offset axes) are all axis 0, its offset axes all axis 1
  have hbd : ∀ X ∈ d.batchDims, X = (0 : Fin 2) := by
    intro X hX
    have : X ∉ d.offsetDims := (List.mem_filter.1 hX).2 |> of_decide_eq_true
    rw [hoff] at this
    match X with
    | ⟨0, _⟩ => rfl
    | ⟨1, _⟩ => exact absurd (List.mem_singleton.mpr rfl) this
  have hod : ∀ X ∈ d.offsetDims, X = (1 : Fin 2) := by
    intro X hX; rw [hoff] at hX; exact List.mem_singleton.1 hX
  have h10 : (1 : Fin 2) ≠ 0 := by decide
  match a with
  | ⟨0, _⟩ =>
    -- operand axis 0: collapsed (offset 0, slice size 1), not batching, start-indexed: the clamped start index alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    unfold GatherDims.start
    rw [dif_pos hm, hsl]
    show min (idx _).toInt.toNat (N - 1) = min (idx (ix2 e (0 : Fin 1))).toInt.toNat (N - 1)
    -- the start index is read at (e, 0): the batch coordinate of (e, j) on axis 0, component 0 on the index vector's axis
    congr 4
    funext b
    refine Fin.ext ?_
    match b with
    | ⟨0, _⟩ =>
      unfold GatherDims.siIdx
      rw [dif_neg (by rw [hivd]; exact Nat.zero_ne_one)]
      unfold GatherDims.siCoord
      have key : ∀ X : Fin 2, X = 0 → ((ix2 e j : (⟨2, ![M, C]⟩ : Shape).Idx) X).val = e.val := fun X hX => by subst hX; rfl
      exact key _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- operand axis 1: neither start-indexed nor batching (start 0), kept: the coordinate of (e, j) on the offset axis
    have hk : (1 : Fin 2) ∈ d.sKept := by rw [GatherDims.mem_sKept, hcoll]; exact ⟨fun h => h10 (List.mem_singleton.1 h), hb 1⟩
    have hm : (1 : Fin 2) ∉ d.startIndexMap := by rw [hsim]; exact fun h => h10 (List.mem_singleton.1 h)
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    have key : ∀ X : Fin 2, X = 1 → ((ix2 e j : (⟨2, ![M, C]⟩ : Shape).Idx) X).val = j.val := fun X hX => by subst hX; rfl
    show 0 + 0 + _ = j.val
    rw [Nat.zero_add]
    exact key _ (hod _ (List.getElem_mem _))

/-- The left half of the gathered two-table rows is the gather of the first table. -/
theorem leftHalf_rowsAt2 (P Q : Cert.KernelIdeal.KStage.TF Cert.KernelIdeal.S100000x128) (ix : Cert.KernelIdeal.KStage.TI Cert.KernelIdeal.S600000x1) :
    Cert.KernelIdeal.KStage.leftHalf (Cert.KernelIdeal.KStage.rowsAt2 (Cert.Spec.pair P Q) ix) = Cert.ReferenceIdeal.RStage.rowsAt P ix := by
  funext i
  obtain ⟨e, j, rfl⟩ : ∃ (e : Fin 600000) (j : Fin 128), i = ix2 e j := ⟨i 0, i 1, eq_ix2 i⟩
  have hj : j.val < 256 := by have := j.isLt; omega
  unfold Cert.KernelIdeal.KStage.leftHalf Cert.KernelIdeal.KStage.rowsAt2 Cert.ReferenceIdeal.RStage.rowsAt
  -- the slice at column offset 0 reads column j of the gathered rows
  refine (extractStridedSlice_apply _ _ _ (ix2 e j) (ix2 e (⟨j.val, hj⟩ : Fin 256)) (fun a => ?_)).trans ?_
  · match a with
    | ⟨0, _⟩ => show e.val = 0 + e.val; omega
    | ⟨1, _⟩ => show j.val = 0 + j.val; omega
  -- both gathers read the row at the same clamped start index: the clamp is to [0, 100000 − 1] for either width
  rw [rowGather_apply (by decide) Cert.KernelIdeal.gather_S100000x256_S600000x1_S600000x256_1_0_n_n_0_1_1256 rfl rfl rfl rfl rfl,
    rowGather_apply (by decide) Cert.ReferenceIdeal.gather_S100000x128_S600000x1_S600000x128_1_0_n_n_0_1_1128 rfl rfl rfl rfl rfl]
  -- column j < 128 of the two tables side by side is column j of the first
  unfold Cert.Spec.pair
  show (if h : j.val < 128 then P (ix2 _ ⟨j.val, h⟩) else Q (ix2 _ ⟨j.val - 128, _⟩)) = _
  rw [dif_pos j.isLt]

/-- The right half of the gathered two-table rows is the gather of the second table. -/
theorem rightHalf_rowsAt2 (P Q : Cert.KernelIdeal.KStage.TF Cert.KernelIdeal.S100000x128) (ix : Cert.KernelIdeal.KStage.TI Cert.KernelIdeal.S600000x1) :
    Cert.KernelIdeal.KStage.rightHalf (Cert.KernelIdeal.KStage.rowsAt2 (Cert.Spec.pair P Q) ix) = Cert.ReferenceIdeal.RStage.rowsAt Q ix := by
  funext i
  obtain ⟨e, j, rfl⟩ : ∃ (e : Fin 600000) (j : Fin 128), i = ix2 e j := ⟨i 0, i 1, eq_ix2 i⟩
  have hj : 128 + j.val < 256 := by have := j.isLt; omega
  unfold Cert.KernelIdeal.KStage.rightHalf Cert.KernelIdeal.KStage.rowsAt2 Cert.ReferenceIdeal.RStage.rowsAt
  -- the slice at column offset 128 reads column 128 + j of the gathered rows
  refine (extractStridedSlice_apply _ _ _ (ix2 e j) (ix2 e (⟨128 + j.val, hj⟩ : Fin 256)) (fun a => ?_)).trans ?_
  · match a with
    | ⟨0, _⟩ => show e.val = 0 + e.val; omega
    | ⟨1, _⟩ => show 128 + j.val = 128 + j.val; rfl
  -- both gathers read the row at the same clamped start index
  rw [rowGather_apply (by decide) Cert.KernelIdeal.gather_S100000x256_S600000x1_S600000x256_1_0_n_n_0_1_1256 rfl rfl rfl rfl rfl,
    rowGather_apply (by decide) Cert.ReferenceIdeal.gather_S100000x128_S600000x1_S600000x128_1_0_n_n_0_1_1128 rfl rfl rfl rfl rfl]
  -- column 128 + j of the two tables side by side is column j of the second
  unfold Cert.Spec.pair
  show (if h : 128 + j.val < 128 then P (ix2 _ ⟨128 + j.val, h⟩) else Q (ix2 _ ⟨128 + j.val - 128, _⟩)) = _
  rw [dif_neg (by omega)]
  congr 2
  exact Fin.ext (by show 128 + j.val - 128 = j.val; omega)

/-- The two programs' 128-column row gathers are one function. -/
theorem rowsAt_eq (P : Cert.KernelIdeal.KStage.TF Cert.KernelIdeal.S100000x128) (ix : Cert.KernelIdeal.KStage.TI Cert.KernelIdeal.S600000x1) : Cert.KernelIdeal.KStage.rowsAt P ix = Cert.ReferenceIdeal.RStage.rowsAt P ix := by
  -- the two programs' dimension numbers for this gather have the same fields
  rfl

end Cert.Bridge

end
-- ==== Proof.BridgeEdge.lean ====
/-
  The edge stretch of the two programs is one function of the node tables: the index vectors, the edge projection
  (a contraction is the same sum whatever precision is asked of it) and the gate and message operations coincide, and
  the gathers from the two-table array are the gathers from its two tables.
-/
import proofs.«423304_j31404800868644_3_alg».proof.Proof.KStages
import proofs.«423304_j31404800868644_3_alg».proof.Proof.RStages
import Idealize.ShloMosaic.PureOps.Ideal.Laws
import Idealize.ShloMosaic.Lib.ValueIdx
import Idealize.ShloMosaic.Lib.ValueLayout
import Idealize.ShloMosaic.Lib.Pipeline.Value
import proofs.«423304_j31404800868644_3_alg».proof.Proof.BridgeGather

noncomputable section

namespace Cert.Bridge

open Idealize.ShloMosaic Idealize.ShloMosaic.ValueIdx
open scoped BigOperators

/-- The edge projection is the same function in the two programs. -/
theorem edgeAffine_eq (ea : Cert.KernelIdeal.KStage.TF Cert.KernelIdeal.S600000x16) (w : Cert.KernelIdeal.KStage.TF Cert.KernelIdeal.S128x16) (b : Cert.KernelIdeal.KStage.TF Cert.KernelIdeal.S128) :
    Cert.KernelIdeal.KStage.edgeAffine ea w b = Cert.ReferenceIdeal.RStage.edgeAffine ea w b := by
  -- over the extended reals a contraction is the sum of products whatever precision is asked of it
  rfl

/-- The aggregated messages from the two-table array [P | Q] and the table Cx are the reference's from P, Q and Cx. -/
theorem aggregate_eq (P Q Cx : Cert.KernelIdeal.KStage.TF Cert.KernelIdeal.S100000x128) (Ex : Cert.KernelIdeal.KStage.TF Cert.KernelIdeal.S600000x128) (ei : Cert.KernelIdeal.KStage.TI Cert.KernelIdeal.S2x600000) :
    Cert.KernelIdeal.KStage.aggregate (Cert.Spec.pair P Q) Cx Ex ei = Cert.ReferenceIdeal.RStage.aggregate P Q Cx Ex ei := by
  unfold Cert.KernelIdeal.KStage.aggregate Cert.ReferenceIdeal.RStage.aggregate
  rw [leftHalf_rowsAt2, rightHalf_rowsAt2, rowsAt_eq]
  rfl

end Cert.Bridge

end
-- ==== Proof.BridgeStats.lean ====
/-
  The column variance is a sum of squares over a positive count, hence nonnegative over the extended reals
  (a square is nonnegative there too: (±∞)² = +∞), so bounding it below by 0 changes nothing.
-/
import proofs.«423304_j31404800868644_3_alg».proof.Proof.KStages
import proofs.«423304_j31404800868644_3_alg».proof.Proof.RStages
import Idealize.ShloMosaic.PureOps.Ideal.Laws
import Idealize.ShloMosaic.Lib.ValueIdx
import Idealize.ShloMosaic.Lib.ValueLayout
import Idealize.ShloMosaic.Lib.Pipeline.Value
import proofs.«423304_j31404800868644_3_alg».proof.Proof.Consts

noncomputable section

namespace Cert.Bridge

open Idealize.ShloMosaic Idealize.ShloMosaic.ValueIdx
open scoped BigOperators

/-- A square is nonnegative on the extended reals: (±∞)² = +∞. -/
theorem ereal_mul_self_nonneg (y : EReal) : 0 ≤ y * y := by
  induction y using EReal.rec with
  | bot => rw [EReal.bot_mul_bot]; exact le_top
  | coe r => rw [← EReal.coe_mul]; exact EReal.coe_nonneg.mpr (mul_self_nonneg r)
  | top => rw [EReal.top_mul_top]; exact le_top

/-- The count of rows the variance divides by is the real 100000: the word of 100000.0 minus the integer 0. -/
theorem count_val (i : Cert.KernelIdeal.S_.Idx) : Cert.KernelIdeal.KStage.count i = ((100000 : ℝ) : EReal) := by
  show FloatOps.subf (FloatOps.ofBits (F := Ideal) .f32 0x47C35000#32) (FloatOps.sitofp (F := Ideal) .f32 (0#32 : BitVec 32)) = _
  rw [Ideal.subf_def, Ideal.ofBits_def, Cert.Consts.ofBits_rows]
  show ((100000 : ℝ) : EReal) - ((((0#32 : BitVec 32).toInt : ℤ) : ℝ) : EReal) = _
  simp

/-- The column variances are nonnegative. -/
theorem varOf_nonneg (o : Cert.KernelIdeal.KStage.TF Cert.KernelIdeal.S100000x128) (j : Fin 128) : 0 ≤ Cert.KernelIdeal.KStage.varOf o (ix1 j) := by
  unfold Cert.KernelIdeal.KStage.varOf
  rw [select_apply]
  have hc : broadcastInDim Cert.KernelIdeal.S128 ![] Cert.KernelIdeal.Facts₀.bcast_S_S128
      (cmpf .ogt Cert.KernelIdeal.KStage.count (constant (F := Ideal) Cert.KernelIdeal.S_ .f32 0x00000000#32)) (ix1 j) = 1#1 := by
    show FloatOps.cmpf .ogt (Cert.KernelIdeal.KStage.count _) (FloatOps.ofBits (F := Ideal) .f32 0x00000000#32) = 1#1
    rw [count_val, Ideal.cmpf_def, Ideal.ofBits_def, Ideal.ofBits_zero_f32]
    unfold Ideal.cmp
    simp
  rw [hc, select_one]
  show 0 ≤ FloatOps.hostDivf _ (Cert.KernelIdeal.KStage.count _)
  rw [count_val, Ideal.hostDivf_def, Ideal.div_coe (by norm_num : (100000 : ℝ) ≠ 0)]
  refine EReal.mul_nonneg ?_ (EReal.coe_nonneg.mpr (by norm_num))
  have hR : Cert.KernelIdeal.S100000x128.Reduces [0] Cert.KernelIdeal.S128 := by decide
  show 0 ≤ Ideal.hostReduceAdd Cert.KernelIdeal.Facts₀.reducesTo_S100000x128_S128_d0
    (mulf (Cert.KernelIdeal.KStage.centred o) (Cert.KernelIdeal.KStage.centred o)) (Ideal.ofBits .f32 0x00000000#32) (ix1 j)
  rw [Ideal.hostReduceAdd_single _ hR, Ideal.ofBits_zero_f32, zero_add]
  exact Finset.sum_nonneg fun k _ => ereal_mul_self_nonneg _

/-- The two programs' column statistics are the same functions. -/
theorem meanOf_eq (o : Cert.KernelIdeal.KStage.TF Cert.KernelIdeal.S100000x128) : Cert.KernelIdeal.KStage.meanOf o = Cert.ReferenceIdeal.RStage.meanOf o := rfl
theorem varOf_eq (o : Cert.KernelIdeal.KStage.TF Cert.KernelIdeal.S100000x128) : Cert.KernelIdeal.KStage.varOf o = Cert.ReferenceIdeal.RStage.varOf o := rfl

/-- The scale of the last stage is the reference's (var + ε)^(-1/2). -/
theorem scaleOf_eq (o : Cert.KernelIdeal.KStage.TF Cert.KernelIdeal.S100000x128) :
    Cert.KernelIdeal.KStage.scaleOf o = Host.rsqrt (addf (Cert.ReferenceIdeal.RStage.varOf o) (broadcastInDim Cert.ReferenceIdeal.S128 ![] Cert.ReferenceIdeal.Facts₀.bcast_S_S128 (constant Cert.ReferenceIdeal.S_ .f32 0x3727C5AC#32))) := by
  have hmax : maximumf (Cert.KernelIdeal.KStage.varOf o) (broadcastInDim Cert.KernelIdeal.S128 ![] Cert.KernelIdeal.Facts₀.bcast_S_S128
      (constant (F := Ideal) Cert.KernelIdeal.S_ .f32 0x00000000#32)) = Cert.KernelIdeal.KStage.varOf o := by
    funext i
    obtain ⟨j, rfl⟩ : ∃ j : Fin 128, i = ix1 j := ⟨i 0, eq_ix1 i⟩
    show max (Cert.KernelIdeal.KStage.varOf o (ix1 j)) (Ideal.ofBits .f32 0x00000000#32) = _
    rw [Ideal.ofBits_zero_f32]
    exact max_eq_left (varOf_nonneg o j)
  unfold Cert.KernelIdeal.KStage.scaleOf
  rw [hmax, varOf_eq]

end Cert.Bridge

end
-- ==== Proof.BridgeNorm.lean ====
/-
  The last stage against the reference's normalisation: entry by entry both are
  max (γ[j] · (o[r, j] − mean[j]) · scale[j] + β[j]) 0, the kernel's product grouped γ · ((o − mean) · scale) and the
  reference's (γ · (o − mean)) · scale — one value, multiplication on the extended reals being associative.
-/
import proofs.«423304_j31404800868644_3_alg».proof.Proof.KStages
import proofs.«423304_j31404800868644_3_alg».proof.Proof.RStages
import Idealize.ShloMosaic.PureOps.Ideal.Laws
import Idealize.ShloMosaic.Lib.ValueIdx
import Idealize.ShloMosaic.Lib.ValueLayout
import Idealize.ShloMosaic.Lib.Pipeline.Value
import proofs.«423304_j31404800868644_3_alg».proof.Proof.BridgeStats

noncomputable section

namespace Cert.Bridge

open Idealize.ShloMosaic Idealize.ShloMosaic.ValueIdx
open scoped BigOperators

/-- A vector of 128 as a one-row array reads, at (0, q), the vector at q. -/
private theorem asRow_apply (v : Cert.KernelIdeal.KStage.TF Cert.KernelIdeal.S128) (q : Fin 128) :
    Cert.KernelIdeal.KStage.asRow v (ix2 (0 : Fin 1) q) = v (ix1 q) :=
  shapeCast_a_1a_apply v _ 0 q

/-- A vector of 128 repeated down the rows reads, at (p, q), the vector at q: first the one row read at (0, q), then
    the vector laid along that row read at q. -/
private theorem downRows_apply (v : Cert.ReferenceIdeal.RStage.TF Cert.ReferenceIdeal.S128) (p : Fin 100000) (q : Fin 128) :
    Cert.ReferenceIdeal.RStage.downRows v (ix2 p q) = v (ix1 q) := by
  unfold Cert.ReferenceIdeal.RStage.downRows
  refine (broadcastInDim_apply ![0, 1] _ _ (ix2 p q) (ix2 (0 : Fin 1) q) fun a => ?_).trans
    (broadcastInDim_apply ![1] _ v (ix2 (0 : Fin 1) q) (ix1 q) fun a => ?_)
  · match a with
    | ⟨0, _⟩ => rfl
    | ⟨1, _⟩ => rfl
  · match a with
    | ⟨0, _⟩ => rfl

/-- The third stage's output is the reference's normalised, rectified array. -/
theorem normalise_eq (o : Cert.KernelIdeal.KStage.TF Cert.KernelIdeal.S100000x128) (g be : Cert.KernelIdeal.KStage.TF Cert.KernelIdeal.S128) :
    Cert.KernelIdeal.KStage.normalise o g be = Cert.ReferenceIdeal.RStage.normalise o g be := by
  funext i
  obtain ⟨p, q, rfl⟩ : ∃ (p : Fin 100000) (q : Fin 128), i = ix2 p q := ⟨i 0, i 1, eq_ix2 i⟩
  unfold Cert.KernelIdeal.KStage.normalise Cert.ReferenceIdeal.RStage.normalise
  -- the centre and the scale are the same two column vectors on both sides: name them, so that they stay closed
  rw [← meanOf_eq o, ← scaleOf_eq o]
  generalize Cert.KernelIdeal.KStage.meanOf o = mu
  generalize Cert.KernelIdeal.KStage.scaleOf o = sc
  -- both sides at the entry (p, q): the positive part of γ · (o − μ) · s + β, the product grouped two ways
  show max (Cert.KernelIdeal.KStage.asRow g (ix2 (0 : Fin 1) q)
        * ((o (ix2 p q) - Cert.KernelIdeal.KStage.asRow mu (ix2 (0 : Fin 1) q)) * Cert.KernelIdeal.KStage.asRow sc (ix2 (0 : Fin 1) q))
        + Cert.KernelIdeal.KStage.asRow be (ix2 (0 : Fin 1) q)) 0
      = max (Cert.ReferenceIdeal.RStage.downRows g (ix2 p q)
        * (o (ix2 p q) - Cert.ReferenceIdeal.RStage.downRows mu (ix2 p q)) * Cert.ReferenceIdeal.RStage.downRows sc (ix2 p q)
        + Cert.ReferenceIdeal.RStage.downRows be (ix2 p q)) (Ideal.ofBits .f32 0x00000000#32)
  rw [asRow_apply, asRow_apply, asRow_apply, asRow_apply, downRows_apply, downRows_apply, downRows_apply, downRows_apply,
    Ideal.ofBits_zero_f32, mul_assoc]

end Cert.Bridge

end
-- ==== Proof.Bridge.lean ====
/-
  The two programs compute one function of their fifteen arguments over the extended reals: stage by stage, the
  affine maps, the edge stretch, the gated residual and the normalisation coincide.
-/
import proofs.«423304_j31404800868644_3_alg».proof.Proof.KStages
import proofs.«423304_j31404800868644_3_alg».proof.Proof.RStages
import Idealize.ShloMosaic.PureOps.Ideal.Laws
import Idealize.ShloMosaic.Lib.ValueIdx
import Idealize.ShloMosaic.Lib.ValueLayout
import Idealize.ShloMosaic.Lib.Pipeline.Value
import proofs.«423304_j31404800868644_3_alg».proof.Proof.BridgeAffine
import proofs.«423304_j31404800868644_3_alg».proof.Proof.BridgeEdge
import proofs.«423304_j31404800868644_3_alg».proof.Proof.BridgeNorm

noncomputable section

namespace Cert.Bridge

open Idealize.ShloMosaic Idealize.ShloMosaic.ValueIdx
open scoped BigOperators

/-- The kernel program's result function is the reference's. -/
theorem out_eq (x : Cert.KernelIdeal.KStage.TF Cert.KernelIdeal.S100000x128) (ei : Cert.KernelIdeal.KStage.TI Cert.KernelIdeal.S2x600000) (ea : Cert.KernelIdeal.KStage.TF Cert.KernelIdeal.S600000x16)
    (Aw : Cert.KernelIdeal.KStage.TF Cert.KernelIdeal.S128x128) (Ab : Cert.KernelIdeal.KStage.TF Cert.KernelIdeal.S128) (Bw : Cert.KernelIdeal.KStage.TF Cert.KernelIdeal.S128x128) (Bb : Cert.KernelIdeal.KStage.TF Cert.KernelIdeal.S128)
    (Cw : Cert.KernelIdeal.KStage.TF Cert.KernelIdeal.S128x128) (Cb : Cert.KernelIdeal.KStage.TF Cert.KernelIdeal.S128) (Dw : Cert.KernelIdeal.KStage.TF Cert.KernelIdeal.S128x128) (Db : Cert.KernelIdeal.KStage.TF Cert.KernelIdeal.S128)
    (Ew : Cert.KernelIdeal.KStage.TF Cert.KernelIdeal.S128x16) (Eb : Cert.KernelIdeal.KStage.TF Cert.KernelIdeal.S128) (g be : Cert.KernelIdeal.KStage.TF Cert.KernelIdeal.S128) :
    Cert.KernelIdeal.KStage.out x ei ea Aw Ab Bw Bb Cw Cb Dw Db Ew Eb g be = Cert.ReferenceIdeal.RStage.out x ei ea Aw Ab Bw Bb Cw Cb Dw Db Ew Eb g be := by
  unfold Cert.KernelIdeal.KStage.out Cert.ReferenceIdeal.RStage.out Cert.KernelIdeal.KStage.residual Cert.Spec.projPair
  rw [normalise_eq, combine_eq, edgeAffine_eq, affine_eq x Aw Ab, affine_eq x Bw Bb, affine_eq x Cw Cb, aggregate_eq]

end Cert.Bridge

end
-- ==== Proof.lean ====
/-
  A gated graph convolution (projections of the node features, an edge gate and message, a sum of the messages into
  their target nodes, a gated residual, a batch normalisation and the positive part), computed by three tiled stages
  among host array operations, against the same layer written as one host program.

  Over the extended reals the two programs are one function of their fifteen arguments:
  * each affine map x · wᵀ + b is the same sum over the 128 features whether it is formed block of rows by block of
    rows inside a stage or by one contraction of the whole array;
  * gathering rows of the side-by-side table [A x | B x] and splitting the columns is gathering A x and B x apart;
  * the one-operation logistic function is 1 / (1 + e^(-z));
  * the column variance is a sum of squares over a positive count, so bounding it below by 0 is the identity;
  * γ · ((o − μ) · s) = (γ · (o − μ)) · s.
  None of these laws needs the inputs finite.

  The frames of the two kernel programs are the generated ones; the reference program is a straight line of host
  operations, so its frame is its run with the result dropped; the idealization rewrote nothing.
-/
import proofs.«423304_j31404800868644_3_alg».proof.Defs
import proofs.«423304_j31404800868644_3_alg».proof.Proof.Gen.Kernel
import proofs.«423304_j31404800868644_3_alg».proof.Proof.Gen.Kernel.Skeleton
import proofs.«423304_j31404800868644_3_alg».proof.Proof.Gen.Kernel.Launch
import proofs.«423304_j31404800868644_3_alg».proof.Proof.Gen.Kernel.Points
import proofs.«423304_j31404800868644_3_alg».proof.Proof.Gen.Kernel.Frame
import proofs.«423304_j31404800868644_3_alg».proof.Proof.Gen.KernelIdeal
import proofs.«423304_j31404800868644_3_alg».proof.Proof.Gen.KernelIdeal.Skeleton
import proofs.«423304_j31404800868644_3_alg».proof.Proof.Gen.KernelIdeal.Launch
import proofs.«423304_j31404800868644_3_alg».proof.Proof.Gen.KernelIdeal.Points
import proofs.«423304_j31404800868644_3_alg».proof.Proof.Gen.KernelIdeal.Frame
import proofs.«423304_j31404800868644_3_alg».proof.Proof.Gen.ReferenceIdeal
import proofs.«423304_j31404800868644_3_alg».proof.Proof.Gen.Pre_finite_inputs
import proofs.«423304_j31404800868644_3_alg».proof.Proof.KRun
import proofs.«423304_j31404800868644_3_alg».proof.Proof.KValue
import proofs.«423304_j31404800868644_3_alg».proof.Proof.RefRun
import proofs.«423304_j31404800868644_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- From memories agreeing on the arguments both programs end with the result array at the one function of the
    arguments: the kernel program's by its run read back through its stages, the reference's by its run, the two
    functions equal stage by stage. -/
theorem algebraic : Cert.algebraic_KernelIdeal_ReferenceIdeal := by
  intro m ρ m' ρ' _ hagree
  refine ⟨fun c => Cert.KernelIdeal.KStage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KValue.W8_out m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13, h14⟩ := hagree c
    rw [h0, h1, h2, h3, h4, h5, h6, h7, h8, h9, h10, h11, h12, h13, h14]
    exact (Cert.Bridge.out_eq _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
